-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S1 .f32) (main_arg3 : FVec F S8192 .f32) (main_arg4 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩
abbrev S8192x1 : Shape := ⟨2, ![8192, 1]⟩
abbrev S1024x2048 : Shape := ⟨2, ![1024, 2048]⟩
abbrev S2048x256 : Shape := ⟨2, ![2048, 256]⟩
abbrev S1024x256 : Shape := ⟨2, ![1024, 256]⟩
abbrev S1024x1 : Shape := ⟨2, ![1024, 1]⟩

abbrev nBuf : Space → Nat
  | .hbm => 25
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S1, .f32⟩
  | .hbm, ⟨3, _⟩ => ⟨S8192, .f32⟩
  | .hbm, ⟨4, _⟩ => ⟨S256x256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1024x1, .f32⟩
  | .local _ .vmem, ⟨8, _⟩ => ⟨S1024x1, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S1 : S_.BroadcastsInDim S1 (![] : Fin 0 → Fin S1.rank)
  bcast_S_S8192 : S_.BroadcastsInDim S8192 (![] : Fin 0 → Fin S8192.rank)
  bcast_S1_S8192_0 : S1.BroadcastsInDim S8192 (![0] : Fin 1 → Fin S8192.rank)
  bcast_S8192_S8192x1_0 : S8192.BroadcastsInDim S8192x1 (![0] : Fin 1 → Fin S8192x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S1, .f32⟩
  | .hbm, ⟨3, _⟩ => ⟨S8192, .f32⟩
  | .hbm, ⟨4, _⟩ => ⟨S256x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.K.Shared.lean ====
/-
  What the three runs of the kernel body and the frame of the kernel share: the contents of the core's buffers
  when the region is entered (after the nineteen host operations that compute the per-row gate), the blocks of
  the five input windows, the two branch conditions of the body in closed form over the grid (the accumulator is
  reset at the first step of the reduction axis, the output block is written at its last step), where the output
  window is idle, and the staging and scratch memrefs by name.
-/
import proofs.«144806_j56341380989597_1_alg».proof.Proof.Gen.Kernel.Launch
import proofs.«144806_j56341380989597_1_alg».proof.Proof.Gen.Kernel.Skeleton
import proofs.«144806_j56341380989597_1_alg».proof.Proof.Gen.Kernel.Points
import proofs.«144806_j56341380989597_1_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations that
    compute the gate. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] hostOps0_sub
    hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first step of the reduction axis": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the reduction axis": the output block is computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1024x256 .f32 := (Memref.whole cc0_stg5_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The accumulator: a whole scoped buffer of the kernel's own, carried between points. -/
abbrev scM0_0 : Memref sig .tc .vmem S1024x256 .f32 := Memref.whole cc0_scratch0
abbrev VS0_0 : View sig .tc .vmem S1024x256 .f32 := scM0_0.view

/-- The core's scoped buffers that are no staging buffer: the accumulator, at some contents. -/
theorem Phi0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.Kernel.Fr

end
-- ==== Proof.K.RunA.lean ====
/-
  The kernel body at a FIRST step of the reduction axis: the accumulator is reset to zero, then the product of the
  point's two blocks is added to it; the output block is not touched. The pieces the accumulator ends with are the
  witness the symbolic run finds.
-/
import proofs.«144806_j56341380989597_1_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run when the reset branch is taken and the output branch is not: the inputs' staging buffers come
    back as they were, the output's untouched, the accumulator with its pieces written. -/
noncomputable def kernelRun0_A (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨[], ?_, fun xi5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.RunB.lean ====
/-
  The kernel body at a MIDDLE step of the reduction axis: the product of the point's two blocks is added to the
  accumulator the step before left; the output block is not touched.
-/
import proofs.«144806_j56341380989597_1_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run when neither branch is taken: the accumulator, handed over at the contents the step before
    left, ends with its pieces written. -/
noncomputable def kernelRun0_B (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨[], ?_, fun xi5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.RunC.lean ====
/-
  The kernel body at the LAST step of the reduction axis: the product of the point's two blocks is added to the
  accumulator, and the output block is computed from the finished accumulator, the weight matrix, the gate column
  and the residual block, and stored.
-/
import proofs.«144806_j56341380989597_1_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run when the output branch is taken and the reset branch is not: the accumulator and the output's
    staging buffer end with their pieces written. -/
noncomputable def kernelRun0_C (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.Outs.lean ====
/-
  What each of the three runs leaves: in the output's staging buffer (a placeholder where the run stores nothing
  there) and in the accumulator, as the run's pieces read back; and that the pieces of a buffer a run stores into
  cover it.
-/
import proofs.«144806_j56341380989597_1_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- This run stores nothing into the output's staging buffer: a placeholder nothing consults. -/
def out0_A_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) : Vec F S1024x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The run's pieces for the accumulator cover it. -/
theorem scover0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) (y : S1024x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1024x256.size (by sl_kernel_rfl) y

/-- What the run leaves in the accumulator. -/
def sout0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) : Vec F S1024x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- This run stores nothing into the output's staging buffer: a placeholder nothing consults. -/
def out0_B_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The run's pieces for the accumulator cover it. -/
theorem scover0_B_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1024x256.size (by sl_kernel_rfl) y

/-- What the run leaves in the accumulator. -/
def sout0_B_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The last step's pieces for the output's staging buffer cover it. -/
theorem cover0_C_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1024x256.size (by sl_kernel_rfl) y

/-- What the last step leaves in the output's staging buffer. -/
def out0_C_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- The last step's pieces for the accumulator cover it. -/
theorem scover0_C_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x256.size (by sl_kernel_rfl) y

/-- What the last step leaves in the accumulator. -/
def sout0_C_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

end Cert.Kernel.Fr

end
-- ==== Proof.K.FrameDefs.lean ====
/-
  What the accumulator and the output's staging buffer hold after each grid point, by recursion on the point (the
  run the point's position on the reduction axis selects, over what the point before left in the accumulator);
  the invariant that carries the accumulator from point to point; and the proof data of the pipeline: the arrays
  as the region finds them, each input's staging buffer at its block, the output's at what the last step stored,
  the array the two residual windows share held half and half.
-/
import proofs.«144806_j56341380989597_1_alg».proof.Proof.K.Outs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The output's staging buffer and the accumulator after the body at position `n`. -/
def outsAt0 (c : Dev nD) : (n : ℕ) → n < cfg0.N → Vec F S1024x256 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first step of the reduction axis. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step: over what the point before left in the accumulator. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`. The two windows that stage the one feature array hold it half and
    half; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare := rfl
theorem q_1 (c : Dev nD) : (dats m 0 c).q 1 = fullShare.left := rfl
theorem q_2 (c : Dev nD) : (dats m 0 c).q 2 = fullShare.right := rfl
theorem q_3 (c : Dev nD) : (dats m 0 c).q 3 = fullShare := rfl
theorem q_4 (c : Dev nD) : (dats m 0 c).q 4 = fullShare := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Fr

end
-- ==== Proof.K.FrameBody.lean ====
/-
  The body obligation of the pipeline: at every grid point, from the invariant (the accumulator at what the point
  before left) and every window's current staging buffer at its block, the kernel body runs to the invariant at
  the next point and the staging buffers as the proof data says — by the point's position on the reduction axis,
  one of the three runs.
-/
import proofs.«144806_j56341380989597_1_alg».proof.Proof.K.FrameDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window is never idle: the body leaves its block in place. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
/-- An input window is never idle: the body leaves its block in place. -/
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
/-- An input window is never idle: the body leaves its block in place. -/
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
/-- An input window is never idle: the body leaves its block in place. -/
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- An input window is never idle: the body leaves its block in place. -/
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 32 := lt_of_lt_of_eq t.isLt (show cfg0.N = 32 from N_0)
  by_cases h0 : t.val % 4 = 0
  · by_cases h1 : t.val % 4 = 3
    · exfalso; omega
    · rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, Phi0_eq]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), Phi0_eq]
  iintro HS0
  iexists _; iexact HS0

end Cert.Kernel.Fr

end
-- ==== Proof.K.Shares.lean ====
/-
  How the full share of an array that two windows of the pipelined kernel stage is dealt between them: the distinct
  buffers behind the windows' arrays, each whole at the full share, are the proof data's arrays when the window
  reading the shared array first holds its left half and the other its right half, every other window the full
  share.  And the contents at the region's exit: as at entry, but for the output array.
-/
import proofs.«144806_j56341380989597_1_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The distinct buffers behind the windows' arrays -/

/-- The windows' arrays lie in five buffers: windows 1 and 2 stage the same one. -/
theorem image_arrRef0 : Finset.univ.image (Pipeline.arrRef spec0) = {main_arg1, main_arg0, main_arg4, main_v14, main_v15} := by
  decide

/-- The distinct buffers conjoined one by one. -/
theorem arrBufs0_eq (c : Dev nD) (Vb : (b : Ref sig .tc) → Buf (Elt F) ((c.tc : Thread nD τ).loc b)) :
    (Pipeline.arrBufs (Ix := Unit) (Name := ℕ) (U := UR sig nD τ) (Lvl := ℕ) spec0 c Vb : sProp 𝕄)
      = iprop((((c : Thread nD τ).loc main_arg1) ↦{fullShare} Vb main_arg1) ∗ (((c : Thread nD τ).loc main_arg0) ↦{fullShare} Vb main_arg0)
          ∗ (((c : Thread nD τ).loc main_arg4) ↦{fullShare} Vb main_arg4) ∗ (((c : Thread nD τ).loc main_v14) ↦{fullShare} Vb main_v14)
          ∗ (((c : Thread nD τ).loc main_v15) ↦{fullShare} Vb main_v15)) := by
  unfold Pipeline.arrBufs
  rw [image_arrRef0, bigSep_insert (by decide), bigSep_insert (by decide), bigSep_insert (by decide), bigSep_insert (by decide), bigSep_singleton]
  rfl

/-- The proof data's arrays conjoined one by one, at the shares dealt. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare) (hq4 : dat.q 4 = fullShare)
    (Vb : (b : Ref sig .tc) → Buf (Elt F) ((c.tc : Thread nD τ).loc b))
    (Fn : (w : Fin cfg0.W) → Buf (Elt F) ((cfg0.win w).arr.view.loc (c.tc : Thread nD τ))) (hF : ∀ w, Fn w = Vb (Pipeline.arrRef spec0 w)) :
    (dat.arrays Fn : sProp 𝕄)
      = iprop((((c : Thread nD τ).loc main_arg1) ↦{fullShare} Vb main_arg1)
          ∗ (((c : Thread nD τ).loc main_arg0) ↦{fullShare.left} Vb main_arg0) ∗ (((c : Thread nD τ).loc main_arg0) ↦{fullShare.right} Vb main_arg0)
          ∗ (((c : Thread nD τ).loc main_arg4) ↦{fullShare} Vb main_arg4) ∗ (((c : Thread nD τ).loc main_v14) ↦{fullShare} Vb main_v14)
          ∗ (((c : Thread nD τ).loc main_v15) ↦{fullShare} Vb main_v15)) := by
  have hs0 : dat.share 0 = fullShare := (if_neg (by decide)).trans hq0
  have hs1 : dat.share 1 = fullShare.left := (if_neg (by decide)).trans hq1
  have hs2 : dat.share 2 = fullShare.right := (if_neg (by decide)).trans hq2
  have hs3 : dat.share 3 = fullShare := (if_neg (by decide)).trans hq3
  have hs4 : dat.share 4 = fullShare := (if_neg (by decide)).trans hq4
  have hs5 : dat.share 5 = fullShare := if_pos (by decide)
  have h (w : Fin cfg0.W) : ((cfg0.win w).arr.view.loc (c.tc : Thread nD τ) ↦[(cfg0.win w).arr.view.set]{dat.share w} Fn w : sProp 𝕄)
      = (((c : Thread nD τ).loc (Pipeline.arrRef spec0 w)) ↦{dat.share w} Vb (Pipeline.arrRef spec0 w)) := by
    rw [(Gen.arr_whole0 w).set_eq_univ, hF]
  unfold Dat.arrays
  rw [Gen.bigSep_W0, h 0, h 1, h 2, h 3, h 4, h 5, hs0, hs1, hs2, hs3, hs4, hs5]

/-- THE DEAL.  The distinct buffers behind the windows' arrays, each whole at the full share, are the proof data's
    arrays at the same contents: the buffer two windows stage is held half by each, the halves making the whole. -/
theorem arrays_iff {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare) (hq4 : dat.q 4 = fullShare)
    (Vb : (b : Ref sig .tc) → Buf (Elt F) ((c.tc : Thread nD τ).loc b))
    (Fn : (w : Fin cfg0.W) → Buf (Elt F) ((cfg0.win w).arr.view.loc (c.tc : Thread nD τ))) (hF : ∀ w, Fn w = Vb (Pipeline.arrRef spec0 w)) :
    (Pipeline.arrBufs (Ix := Unit) (Name := ℕ) (U := UR sig nD τ) (Lvl := ℕ) spec0 c Vb : sProp 𝕄) ⊣⊢ dat.arrays Fn := by
  rw [arrBufs0_eq, arrays0_eq dat hq0 hq1 hq2 hq3 hq4 Vb Fn hF]
  have hX : ((((c : Thread nD τ).loc main_arg0) ↦{fullShare} Vb main_arg0) : sProp 𝕄)
      ⊣⊢ iprop((((c : Thread nD τ).loc main_arg0) ↦{fullShare.left} Vb main_arg0) ∗ (((c : Thread nD τ).loc main_arg0) ↦{fullShare.right} Vb main_arg0)) :=
    pointsTo_share (PosShare.mem_left_op_right fullShare)
  constructor
  · iintro ⟨HA, HX, HW, HS, HO⟩
    ihave HX' := hX.1 $$ HX
    icases HX' with ⟨HXl, HXr⟩
    isplitl [HA]; · iexact HA
    isplitl [HXl]; · iexact HXl
    isplitl [HXr]; · iexact HXr
    isplitl [HW]; · iexact HW
    isplitl [HS]; · iexact HS
    iexact HO
  · iintro ⟨HA, HXl, HXr, HW, HS, HO⟩
    isplitl [HA]; · iexact HA
    isplitl [HXl HXr]
    · iapply hX.2
      isplitl [HXl]; · iexact HXl
      iexact HXr
    isplitl [HW]; · iexact HW
    isplitl [HS]; · iexact HS
    iexact HO

/-! ## The contents at the region's exit -/

/-- the contents at the region's exit: as at entry, but the output array at `out` -/
def Vx (c : Dev nD) (out : Buf (Elt F) ((c.tc : Thread nD τ).loc main_v15)) : Valuation τ sig (Elt F) :=
  Function.update (V0 m c) (Proc.devRef .tc main_v15) out

/-- At the output array it is `out`. -/
theorem Vx_out (c : Dev nD) (out : Buf (Elt F) ((c.tc : Thread nD τ).loc main_v15)) :
    Vx m c out (Proc.devRef .tc main_v15) = out :=
  Function.update_self _ _ _

/-- At every other buffer it is the entry contents. -/
theorem Vx_of_ne (c : Dev nD) (out : Buf (Elt F) ((c.tc : Thread nD τ).loc main_v15)) (b : Ref sig .tc) (h : b ≠ main_v15) :
    Vx m c out (Proc.devRef .tc b) = V m c b :=
  Function.update_of_ne (StableHlo.devRef_ne_of_ne h) _ _

/-- The buffers that bypass the region are as at entry: the output array is a window's. -/
theorem Vx_rest (c : Dev nD) (out : Buf (Elt F) ((c.tc : Thread nD τ).loc main_v15)) :
    ∀ b ∈ Pipeline.restRefs sig spec0, Vx m c out (Proc.devRef .tc b) = V0 m c (Proc.devRef .tc b) := by
  intro b hb
  refine Vx_of_ne m c out b fun h => (Finset.mem_sdiff.mp hb).2 ?_
  rw [h]
  exact Finset.mem_image.mpr ⟨5, Finset.mem_univ _, rfl⟩

end Cert.Kernel.Fr

end
-- ==== Proof.K.FrameRun.lean ====
/-
  The run of the kernel program: every weakly fair execution of @main terminates, the output array ends at what the
  write-backs of the proof data leave in it, and the five argument arrays end as they were launched. The array the
  two residual windows share is dealt to them half and half when the region is entered and made whole again at its
  exit.
-/
import proofs.«144806_j56341380989597_1_alg».proof.Proof.K.FrameBody
import proofs.«144806_j56341380989597_1_alg».proof.Proof.K.Shares

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: as at its entry, but for the output array. -/
abbrev Vexit (c : Dev nD) : Valuation τ sig (Elt F) := Vx m c ((dats m 0 c).arrAt 5 cfg0.N)

/-- Entering the region: the distinct arrays, each whole, are the windows' arrays at their shares. -/
theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) :=
  (arrays_iff (dats m 0 c) (q_0 m c) (q_1 m c) (q_2 m c) (q_3 m c) (q_4 m c) (V m c) ((dats m 0 c).arrAt · 0) (fun w => A_eq m c w)).1

/-- After the last point every window's array is the exit contents' buffer behind it: an input array was never
    written, the output array is the exit contents' by definition. -/
theorem arrAt_exit (c : Dev nD) : ∀ w : Fin cfg0.W, (dats m 0 c).arrAt w cfg0.N = Vexit m c (Proc.devRef .tc (Pipeline.arrRef spec0 w))
  | ⟨0, _⟩ => ((dats m 0 c).arrAt_in 0 rfl _).trans ((A_eq m c 0).trans (Vx_of_ne m c _ main_arg1 (by decide)).symm)
  | ⟨1, _⟩ => ((dats m 0 c).arrAt_in 1 rfl _).trans ((A_eq m c 1).trans (Vx_of_ne m c _ main_arg0 (by decide)).symm)
  | ⟨2, _⟩ => ((dats m 0 c).arrAt_in 2 rfl _).trans ((A_eq m c 2).trans (Vx_of_ne m c _ main_arg0 (by decide)).symm)
  | ⟨3, _⟩ => ((dats m 0 c).arrAt_in 3 rfl _).trans ((A_eq m c 3).trans (Vx_of_ne m c _ main_arg4 (by decide)).symm)
  | ⟨4, _⟩ => ((dats m 0 c).arrAt_in 4 rfl _).trans ((A_eq m c 4).trans (Vx_of_ne m c _ main_v14 (by decide)).symm)
  | ⟨5, _⟩ => (Vx_out m c _).symm

/-- Leaving the region: the windows' arrays at their shares are the distinct arrays, each whole, at the exit
    contents. -/
theorem hmerge (c : Dev nD) :
    ((dats m 0 c).arrays ((dats m 0 c).arrAt · cfg0.N) : sProp 𝕄)
      ⊣⊢ Pipeline.arrBufs (Ix := Unit) (Name := ℕ) (U := UR sig nD τ) (Lvl := ℕ) spec0 c (fun b => Vexit m c (Proc.devRef .tc b)) :=
  have h := arrays_iff (dats m 0 c) (q_0 m c) (q_1 m c) (q_2 m c) (q_3 m c) (q_4 m c) (fun b => Vexit m c (Proc.devRef .tc b)) ((dats m 0 c).arrAt · cfg0.N) (arrAt_exit m c)
  ⟨h.2, h.1⟩

set_option backward.isDefEq.respectTransparency.types false in
/-- THE RUN. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b)
          = StableHlo.after ([] : List (List (HloOp τ sig (Elt F)))).flatten (Vexit m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (Vx := Vexit m) (opss := [])
    (hsub := fun _ h => absurd h List.not_mem_nil) (hfresh := fun _ h => absurd h List.not_mem_nil) (hkeep := fun _ h => absurd h List.not_mem_nil)
    (hmain := hmain m Variants.none) (hsplit := hsplit m) (hmerge := hmerge m) (hrest := fun c => Vx_rest m c _) (hin := hin m) (hout := hout m)

/-- The run read at the result and the arguments: the output array at what the write-backs left, the five
    argument arrays as launched. -/
theorem run_post : θ_run defs (onTc (τ := τ) (main (F := F))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans ((Vx_of_ne m c _ main_arg2 (by decide)).trans (V_main_arg2 m c)),
      ((h c).2 main_arg3 (Pipeline.mem_restRefs_of main_arg3 (by decide) (by decide))).trans ((Vx_of_ne m c _ main_arg3 (by decide)).trans (V_main_arg3 m c)),
      ((h c).1 3).trans (((dats m 0 c).arrAt_in 3 rfl _).trans ((A_eq m c 3).trans (V_main_arg4 m c)))⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ)

end Cert.Kernel.Fr

end
-- ==== Proof.KI.Shared.lean ====
/-
  What the three runs of the kernel body and the frame of the kernel share: the contents of the core's buffers
  when the region is entered (after the nineteen host operations that compute the per-row gate), the blocks of
  the five input windows, the two branch conditions of the body in closed form over the grid (the accumulator is
  reset at the first step of the reduction axis, the output block is written at its last step), where the output
  window is idle, and the staging and scratch memrefs by name.
-/
import proofs.«144806_j56341380989597_1_alg».proof.Proof.Gen.KernelIdeal.Launch
import proofs.«144806_j56341380989597_1_alg».proof.Proof.Gen.KernelIdeal.Skeleton
import proofs.«144806_j56341380989597_1_alg».proof.Proof.Gen.KernelIdeal.Points
import proofs.«144806_j56341380989597_1_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations that
    compute the gate. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] hostOps0_sub
    hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first step of the reduction axis": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the reduction axis": the output block is computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1024x256 .f32 := (Memref.whole cc0_stg5_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The accumulator: a whole scoped buffer of the kernel's own, carried between points. -/
abbrev scM0_0 : Memref sig .tc .vmem S1024x256 .f32 := Memref.whole cc0_scratch0
abbrev VS0_0 : View sig .tc .vmem S1024x256 .f32 := scM0_0.view

/-- The core's scoped buffers that are no staging buffer: the accumulator, at some contents. -/
theorem Phi0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.KernelIdeal.Fr

end
-- ==== Proof.KI.RunA.lean ====
/-
  The kernel body at a FIRST step of the reduction axis: the accumulator is reset to zero, then the product of the
  point's two blocks is added to it; the output block is not touched. The pieces the accumulator ends with are the
  witness the symbolic run finds.
-/
import proofs.«144806_j56341380989597_1_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run when the reset branch is taken and the output branch is not: the inputs' staging buffers come
    back as they were, the output's untouched, the accumulator with its pieces written. -/
noncomputable def kernelRun0_A (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨[], ?_, fun xi5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.RunB.lean ====
/-
  The kernel body at a MIDDLE step of the reduction axis: the product of the point's two blocks is added to the
  accumulator the step before left; the output block is not touched.
-/
import proofs.«144806_j56341380989597_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run when neither branch is taken: the accumulator, handed over at the contents the step before
    left, ends with its pieces written. -/
noncomputable def kernelRun0_B (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨[], ?_, fun xi5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.RunC.lean ====
/-
  The kernel body at the LAST step of the reduction axis: the product of the point's two blocks is added to the
  accumulator, and the output block is computed from the finished accumulator, the weight matrix, the gate column
  and the residual block, and stored.
-/
import proofs.«144806_j56341380989597_1_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run when the output branch is taken and the reset branch is not: the accumulator and the output's
    staging buffer end with their pieces written. -/
noncomputable def kernelRun0_C (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.Outs.lean ====
/-
  What each of the three runs leaves: in the output's staging buffer (a placeholder where the run stores nothing
  there) and in the accumulator, as the run's pieces read back; and that the pieces of a buffer a run stores into
  cover it.
-/
import proofs.«144806_j56341380989597_1_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- This run stores nothing into the output's staging buffer: a placeholder nothing consults. -/
def out0_A_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) : Vec F S1024x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The run's pieces for the accumulator cover it. -/
theorem scover0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) (y : S1024x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1024x256.size (by sl_kernel_rfl) y

/-- What the run leaves in the accumulator. -/
def sout0_A_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) : Vec F S1024x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- This run stores nothing into the output's staging buffer: a placeholder nothing consults. -/
def out0_B_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The run's pieces for the accumulator cover it. -/
theorem scover0_B_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1024x256.size (by sl_kernel_rfl) y

/-- What the run leaves in the accumulator. -/
def sout0_B_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The last step's pieces for the output's staging buffer cover it. -/
theorem cover0_C_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1024x256.size (by sl_kernel_rfl) y

/-- What the last step leaves in the output's staging buffer. -/
def out0_C_5 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- The last step's pieces for the accumulator cover it. -/
theorem scover0_C_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x256.size (by sl_kernel_rfl) y

/-- What the last step leaves in the accumulator. -/
def sout0_C_0 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) : Vec F S1024x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

end Cert.KernelIdeal.Fr

end
-- ==== Proof.KI.FrameDefs.lean ====
/-
  What the accumulator and the output's staging buffer hold after each grid point, by recursion on the point (the
  run the point's position on the reduction axis selects, over what the point before left in the accumulator);
  the invariant that carries the accumulator from point to point; and the proof data of the pipeline: the arrays
  as the region finds them, each input's staging buffer at its block, the output's at what the last step stored,
  the array the two residual windows share held half and half.
-/
import proofs.«144806_j56341380989597_1_alg».proof.Proof.KI.Outs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The output's staging buffer and the accumulator after the body at position `n`. -/
def outsAt0 (c : Dev nD) : (n : ℕ) → n < cfg0.N → Vec F S1024x256 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first step of the reduction axis. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last step: over what the point before left in the accumulator. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`. The two windows that stage the one feature array hold it half and
    half; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare := rfl
theorem q_1 (c : Dev nD) : (dats m 0 c).q 1 = fullShare.left := rfl
theorem q_2 (c : Dev nD) : (dats m 0 c).q 2 = fullShare.right := rfl
theorem q_3 (c : Dev nD) : (dats m 0 c).q 3 = fullShare := rfl
theorem q_4 (c : Dev nD) : (dats m 0 c).q 4 = fullShare := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Fr

end
-- ==== Proof.KI.FrameBody.lean ====
/-
  The body obligation of the pipeline: at every grid point, from the invariant (the accumulator at what the point
  before left) and every window's current staging buffer at its block, the kernel body runs to the invariant at
  the next point and the staging buffers as the proof data says — by the point's position on the reduction axis,
  one of the three runs.
-/
import proofs.«144806_j56341380989597_1_alg».proof.Proof.KI.FrameDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window is never idle: the body leaves its block in place. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
/-- An input window is never idle: the body leaves its block in place. -/
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
/-- An input window is never idle: the body leaves its block in place. -/
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
/-- An input window is never idle: the body leaves its block in place. -/
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- An input window is never idle: the body leaves its block in place. -/
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 32 := lt_of_lt_of_eq t.isLt (show cfg0.N = 32 from N_0)
  by_cases h0 : t.val % 4 = 0
  · by_cases h1 : t.val % 4 = 3
    · exfalso; omega
    · rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, Phi0_eq]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), Phi0_eq]
  iintro HS0
  iexists _; iexact HS0

end Cert.KernelIdeal.Fr

end
-- ==== Proof.KI.Shares.lean ====
/-
  How the full share of an array that two windows of the pipelined kernel stage is dealt between them: the distinct
  buffers behind the windows' arrays, each whole at the full share, are the proof data's arrays when the window
  reading the shared array first holds its left half and the other its right half, every other window the full
  share.  And the contents at the region's exit: as at entry, but for the output array.
-/
import proofs.«144806_j56341380989597_1_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The distinct buffers behind the windows' arrays -/

/-- The windows' arrays lie in five buffers: windows 1 and 2 stage the same one. -/
theorem image_arrRef0 : Finset.univ.image (Pipeline.arrRef spec0) = {main_arg1, main_arg0, main_arg4, main_v14, main_v15} := by
  decide

/-- The distinct buffers conjoined one by one. -/
theorem arrBufs0_eq (c : Dev nD) (Vb : (b : Ref sig .tc) → Buf (Elt F) ((c.tc : Thread nD τ).loc b)) :
    (Pipeline.arrBufs (Ix := Unit) (Name := ℕ) (U := UR sig nD τ) (Lvl := ℕ) spec0 c Vb : sProp 𝕄)
      = iprop((((c : Thread nD τ).loc main_arg1) ↦{fullShare} Vb main_arg1) ∗ (((c : Thread nD τ).loc main_arg0) ↦{fullShare} Vb main_arg0)
          ∗ (((c : Thread nD τ).loc main_arg4) ↦{fullShare} Vb main_arg4) ∗ (((c : Thread nD τ).loc main_v14) ↦{fullShare} Vb main_v14)
          ∗ (((c : Thread nD τ).loc main_v15) ↦{fullShare} Vb main_v15)) := by
  unfold Pipeline.arrBufs
  rw [image_arrRef0, bigSep_insert (by decide), bigSep_insert (by decide), bigSep_insert (by decide), bigSep_insert (by decide), bigSep_singleton]
  rfl

/-- The proof data's arrays conjoined one by one, at the shares dealt. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare) (hq4 : dat.q 4 = fullShare)
    (Vb : (b : Ref sig .tc) → Buf (Elt F) ((c.tc : Thread nD τ).loc b))
    (Fn : (w : Fin cfg0.W) → Buf (Elt F) ((cfg0.win w).arr.view.loc (c.tc : Thread nD τ))) (hF : ∀ w, Fn w = Vb (Pipeline.arrRef spec0 w)) :
    (dat.arrays Fn : sProp 𝕄)
      = iprop((((c : Thread nD τ).loc main_arg1) ↦{fullShare} Vb main_arg1)
          ∗ (((c : Thread nD τ).loc main_arg0) ↦{fullShare.left} Vb main_arg0) ∗ (((c : Thread nD τ).loc main_arg0) ↦{fullShare.right} Vb main_arg0)
          ∗ (((c : Thread nD τ).loc main_arg4) ↦{fullShare} Vb main_arg4) ∗ (((c : Thread nD τ).loc main_v14) ↦{fullShare} Vb main_v14)
          ∗ (((c : Thread nD τ).loc main_v15) ↦{fullShare} Vb main_v15)) := by
  have hs0 : dat.share 0 = fullShare := (if_neg (by decide)).trans hq0
  have hs1 : dat.share 1 = fullShare.left := (if_neg (by decide)).trans hq1
  have hs2 : dat.share 2 = fullShare.right := (if_neg (by decide)).trans hq2
  have hs3 : dat.share 3 = fullShare := (if_neg (by decide)).trans hq3
  have hs4 : dat.share 4 = fullShare := (if_neg (by decide)).trans hq4
  have hs5 : dat.share 5 = fullShare := if_pos (by decide)
  have h (w : Fin cfg0.W) : ((cfg0.win w).arr.view.loc (c.tc : Thread nD τ) ↦[(cfg0.win w).arr.view.set]{dat.share w} Fn w : sProp 𝕄)
      = (((c : Thread nD τ).loc (Pipeline.arrRef spec0 w)) ↦{dat.share w} Vb (Pipeline.arrRef spec0 w)) := by
    rw [(Gen.arr_whole0 w).set_eq_univ, hF]
  unfold Dat.arrays
  rw [Gen.bigSep_W0, h 0, h 1, h 2, h 3, h 4, h 5, hs0, hs1, hs2, hs3, hs4, hs5]

/-- THE DEAL.  The distinct buffers behind the windows' arrays, each whole at the full share, are the proof data's
    arrays at the same contents: the buffer two windows stage is held half by each, the halves making the whole. -/
theorem arrays_iff {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare) (hq4 : dat.q 4 = fullShare)
    (Vb : (b : Ref sig .tc) → Buf (Elt F) ((c.tc : Thread nD τ).loc b))
    (Fn : (w : Fin cfg0.W) → Buf (Elt F) ((cfg0.win w).arr.view.loc (c.tc : Thread nD τ))) (hF : ∀ w, Fn w = Vb (Pipeline.arrRef spec0 w)) :
    (Pipeline.arrBufs (Ix := Unit) (Name := ℕ) (U := UR sig nD τ) (Lvl := ℕ) spec0 c Vb : sProp 𝕄) ⊣⊢ dat.arrays Fn := by
  rw [arrBufs0_eq, arrays0_eq dat hq0 hq1 hq2 hq3 hq4 Vb Fn hF]
  have hX : ((((c : Thread nD τ).loc main_arg0) ↦{fullShare} Vb main_arg0) : sProp 𝕄)
      ⊣⊢ iprop((((c : Thread nD τ).loc main_arg0) ↦{fullShare.left} Vb main_arg0) ∗ (((c : Thread nD τ).loc main_arg0) ↦{fullShare.right} Vb main_arg0)) :=
    pointsTo_share (PosShare.mem_left_op_right fullShare)
  constructor
  · iintro ⟨HA, HX, HW, HS, HO⟩
    ihave HX' := hX.1 $$ HX
    icases HX' with ⟨HXl, HXr⟩
    isplitl [HA]; · iexact HA
    isplitl [HXl]; · iexact HXl
    isplitl [HXr]; · iexact HXr
    isplitl [HW]; · iexact HW
    isplitl [HS]; · iexact HS
    iexact HO
  · iintro ⟨HA, HXl, HXr, HW, HS, HO⟩
    isplitl [HA]; · iexact HA
    isplitl [HXl HXr]
    · iapply hX.2
      isplitl [HXl]; · iexact HXl
      iexact HXr
    isplitl [HW]; · iexact HW
    isplitl [HS]; · iexact HS
    iexact HO

/-! ## The contents at the region's exit -/

/-- the contents at the region's exit: as at entry, but the output array at `out` -/
def Vx (c : Dev nD) (out : Buf (Elt F) ((c.tc : Thread nD τ).loc main_v15)) : Valuation τ sig (Elt F) :=
  Function.update (V0 m c) (Proc.devRef .tc main_v15) out

/-- At the output array it is `out`. -/
theorem Vx_out (c : Dev nD) (out : Buf (Elt F) ((c.tc : Thread nD τ).loc main_v15)) :
    Vx m c out (Proc.devRef .tc main_v15) = out :=
  Function.update_self _ _ _

/-- At every other buffer it is the entry contents. -/
theorem Vx_of_ne (c : Dev nD) (out : Buf (Elt F) ((c.tc : Thread nD τ).loc main_v15)) (b : Ref sig .tc) (h : b ≠ main_v15) :
    Vx m c out (Proc.devRef .tc b) = V m c b :=
  Function.update_of_ne (StableHlo.devRef_ne_of_ne h) _ _

/-- The buffers that bypass the region are as at entry: the output array is a window's. -/
theorem Vx_rest (c : Dev nD) (out : Buf (Elt F) ((c.tc : Thread nD τ).loc main_v15)) :
    ∀ b ∈ Pipeline.restRefs sig spec0, Vx m c out (Proc.devRef .tc b) = V0 m c (Proc.devRef .tc b) := by
  intro b hb
  refine Vx_of_ne m c out b fun h => (Finset.mem_sdiff.mp hb).2 ?_
  rw [h]
  exact Finset.mem_image.mpr ⟨5, Finset.mem_univ _, rfl⟩

end Cert.KernelIdeal.Fr

end
-- ==== Proof.KI.FrameRun.lean ====
/-
  The run of the kernel program: every weakly fair execution of @main terminates, the output array ends at what the
  write-backs of the proof data leave in it, and the five argument arrays end as they were launched. The array the
  two residual windows share is dealt to them half and half when the region is entered and made whole again at its
  exit.
-/
import proofs.«144806_j56341380989597_1_alg».proof.Proof.KI.FrameBody
import proofs.«144806_j56341380989597_1_alg».proof.Proof.KI.Shares

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: as at its entry, but for the output array. -/
abbrev Vexit (c : Dev nD) : Valuation τ sig (Elt F) := Vx m c ((dats m 0 c).arrAt 5 cfg0.N)

/-- Entering the region: the distinct arrays, each whole, are the windows' arrays at their shares. -/
theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) :=
  (arrays_iff (dats m 0 c) (q_0 m c) (q_1 m c) (q_2 m c) (q_3 m c) (q_4 m c) (V m c) ((dats m 0 c).arrAt · 0) (fun w => A_eq m c w)).1

/-- After the last point every window's array is the exit contents' buffer behind it: an input array was never
    written, the output array is the exit contents' by definition. -/
theorem arrAt_exit (c : Dev nD) : ∀ w : Fin cfg0.W, (dats m 0 c).arrAt w cfg0.N = Vexit m c (Proc.devRef .tc (Pipeline.arrRef spec0 w))
  | ⟨0, _⟩ => ((dats m 0 c).arrAt_in 0 rfl _).trans ((A_eq m c 0).trans (Vx_of_ne m c _ main_arg1 (by decide)).symm)
  | ⟨1, _⟩ => ((dats m 0 c).arrAt_in 1 rfl _).trans ((A_eq m c 1).trans (Vx_of_ne m c _ main_arg0 (by decide)).symm)
  | ⟨2, _⟩ => ((dats m 0 c).arrAt_in 2 rfl _).trans ((A_eq m c 2).trans (Vx_of_ne m c _ main_arg0 (by decide)).symm)
  | ⟨3, _⟩ => ((dats m 0 c).arrAt_in 3 rfl _).trans ((A_eq m c 3).trans (Vx_of_ne m c _ main_arg4 (by decide)).symm)
  | ⟨4, _⟩ => ((dats m 0 c).arrAt_in 4 rfl _).trans ((A_eq m c 4).trans (Vx_of_ne m c _ main_v14 (by decide)).symm)
  | ⟨5, _⟩ => (Vx_out m c _).symm

/-- Leaving the region: the windows' arrays at their shares are the distinct arrays, each whole, at the exit
    contents. -/
theorem hmerge (c : Dev nD) :
    ((dats m 0 c).arrays ((dats m 0 c).arrAt · cfg0.N) : sProp 𝕄)
      ⊣⊢ Pipeline.arrBufs (Ix := Unit) (Name := ℕ) (U := UR sig nD τ) (Lvl := ℕ) spec0 c (fun b => Vexit m c (Proc.devRef .tc b)) :=
  have h := arrays_iff (dats m 0 c) (q_0 m c) (q_1 m c) (q_2 m c) (q_3 m c) (q_4 m c) (fun b => Vexit m c (Proc.devRef .tc b)) ((dats m 0 c).arrAt · cfg0.N) (arrAt_exit m c)
  ⟨h.2, h.1⟩

set_option backward.isDefEq.respectTransparency.types false in
/-- THE RUN. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b)
          = StableHlo.after ([] : List (List (HloOp τ sig (Elt F)))).flatten (Vexit m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (Vx := Vexit m) (opss := [])
    (hsub := fun _ h => absurd h List.not_mem_nil) (hfresh := fun _ h => absurd h List.not_mem_nil) (hkeep := fun _ h => absurd h List.not_mem_nil)
    (hmain := hmain m Variants.none) (hsplit := hsplit m) (hmerge := hmerge m) (hrest := fun c => Vx_rest m c _) (hin := hin m) (hout := hout m)

/-- The run read at the result and the arguments: the output array at what the write-backs left, the five
    argument arrays as launched. -/
theorem run_post : θ_run defs (onTc (τ := τ) (main (F := F))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans ((Vx_of_ne m c _ main_arg2 (by decide)).trans (V_main_arg2 m c)),
      ((h c).2 main_arg3 (Pipeline.mem_restRefs_of main_arg3 (by decide) (by decide))).trans ((Vx_of_ne m c _ main_arg3 (by decide)).trans (V_main_arg3 m c)),
      ((h c).1 3).trans (((dats m 0 c).arrAt_in 3 rfl _).trans ((A_eq m c 3).trans (V_main_arg4 m c)))⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ)

end Cert.KernelIdeal.Fr

end
-- ==== Proof.LibERealFold.lean ====
/-
  General lemmas on finite real values inside the extended reals: a finite sum of reals, and a
  minimum over a nonempty finite family of reals taken from the top element, stay real.
-/
import Mathlib.Data.EReal.Operations
import Mathlib.Order.Fin.Basic
import Mathlib.Algebra.BigOperators.Group.Finset.Basic
import Mathlib.Order.Lattice
import Mathlib.Data.Finset.Lattice.Fold

namespace ERealFold

/-- A finite sum of real values, read in the extended reals, is the real sum. -/
theorem coe_sum {ι : Type*} (s : Finset ι) (f : ι → ℝ) :
    ∑ i ∈ s, ((f i : ℝ) : EReal) = ((∑ i ∈ s, f i : ℝ) : EReal) := by
  -- by induction on the index set: the empty sum is zero on both sides, and adding one more index
  -- adds one real summand, which the inclusion of the reals respects
  induction s using Finset.cons_induction with
  | empty => rw [Finset.sum_empty, Finset.sum_empty, EReal.coe_zero]
  | cons a s ha ih => rw [Finset.sum_cons, Finset.sum_cons, ih, EReal.coe_add]

/-- The minimum, started from the top element, of a nonempty finite family of real values is the real minimum. -/
theorem fold_min_top_coe {ι : Type*} [Fintype ι] [Nonempty ι] (f : ι → ℝ) :
    (Finset.univ : Finset ι).fold min (⊤ : EReal) (fun i => ((f i : ℝ) : EReal))
      = ((Finset.univ.inf' Finset.univ_nonempty f : ℝ) : EReal) := by
  -- folding the binary minimum from the top element is the infimum of the family in the extended reals
  have hfold : (Finset.univ : Finset ι).fold min (⊤ : EReal) (fun i => ((f i : ℝ) : EReal))
      = Finset.univ.inf (fun i => ((f i : ℝ) : EReal)) := rfl
  -- over a nonempty index set that infimum needs no top element; and the inclusion of the reals is
  -- monotone, hence commutes with binary minima and so with the minimum of a nonempty finite family
  rw [hfold, ← Finset.inf'_eq_inf Finset.univ_nonempty]
  exact (Finset.apply_inf'_eq_inf'_comp Finset.univ_nonempty (fun x : ℝ => (x : EReal))
    (fun x y => EReal.coe_strictMono.monotone.map_inf x y)).symm

end ERealFold
-- ==== Proof.Spec.lean ====
/-
  The mathematics both programs compute, on the extended reals.

  With  agg = relu((A·X)·W)  (a product of three matrices, clamped below at zero) and a per-row gate
  s[r] = sigmoid(wg[0]) · sigmoid(wl[r]),  sigmoid(t) = 1 / (1 + exp(−t)),  one program returns
  X + s·(agg − X)  and the other  s·agg + X − s·X.  On the extended reals multiplication does not
  distribute over a difference at the infinities, so the two arrangements are compared where every
  quantity is a real number: there the identity is the distributive law of the real field.
  That every quantity is real is shown from the inputs being real: a finite sum of products of
  reals is real, a maximum of two reals is real, the exponential of a real is a positive real,
  one plus a positive real is a nonzero real, and one divided by a nonzero real is a real.
-/
import proofs.«144806_j56341380989597_1_alg».proof.KernelIdeal
import Idealize.ShloMosaic.PureOps.Ideal
import Idealize.ShloMosaic.PureOps.Ideal.Laws
import Idealize.ShloMosaic.Lib.ValueIdx
import Idealize.ShloMosaic.Lib.IdealHost
import proofs.«144806_j56341380989597_1_alg».proof.Proof.LibERealFold
import Mathlib.Data.EReal.Basic
import Mathlib.Data.EReal.Operations
import Mathlib.Order.Monotone.Basic
import Mathlib.Tactic.Ring
import Mathlib.Tactic.Choose

noncomputable section

namespace Cert.Spec

open Idealize.ShloMosaic Idealize.ShloMosaic.ValueIdx Cert.KernelIdeal
open scoped BigOperators

/-! ## The aggregate and the two arrangements -/

/-- relu((A·X)·W) at row r, column q -/
def agg (X : FVec Ideal S8192x256 .f32) (A : FVec Ideal S8192x8192 .f32) (W : FVec Ideal S256x256 .f32)
    (r : Fin 8192) (q : Fin 256) : EReal :=
  max (∑ l : Fin 256, (∑ j : Fin 8192, A (ix2 r j) * X (ix2 j l)) * W (ix2 l q)) 0

/-- the kernel's arrangement  x + s·(agg − x) -/
def G (X : FVec Ideal S8192x256 .f32) (A : FVec Ideal S8192x8192 .f32) (W : FVec Ideal S256x256 .f32)
    (s : FVec Ideal S8192x1 .f32) : FVec Ideal S8192x256 .f32 :=
  fun i => X i + s (ix2 (i 0) (0 : Fin 1)) * (agg X A W (i 0) (i 1) - X i)

/-- the reference's arrangement  s·agg + x − s·x -/
def R (X : FVec Ideal S8192x256 .f32) (A : FVec Ideal S8192x8192 .f32) (W : FVec Ideal S256x256 .f32)
    (s : FVec Ideal S8192x1 .f32) : FVec Ideal S8192x256 .f32 :=
  fun i => s (ix2 (i 0) (0 : Fin 1)) * agg X A W (i 0) (i 1) + X i - s (ix2 (i 0) (0 : Fin 1)) * X i

theorem G_apply (X : FVec Ideal S8192x256 .f32) (A : FVec Ideal S8192x8192 .f32) (W : FVec Ideal S256x256 .f32)
    (s : FVec Ideal S8192x1 .f32) (r : Fin 8192) (q : Fin 256) :
    G X A W s (ix2 r q) = X (ix2 r q) + s (ix2 r 0) * (agg X A W r q - X (ix2 r q)) := rfl

theorem R_apply (X : FVec Ideal S8192x256 .f32) (A : FVec Ideal S8192x8192 .f32) (W : FVec Ideal S256x256 .f32)
    (s : FVec Ideal S8192x1 .f32) (r : Fin 8192) (q : Fin 256) :
    R X A W s (ix2 r q) = s (ix2 r 0) * agg X A W r q + X (ix2 r q) - s (ix2 r 0) * X (ix2 r q) := rfl

/-- The aggregate of real matrices is real: each product is real, each finite sum of reals is real, and the
    larger of a real and zero is real. -/
theorem agg_real (X : FVec Ideal S8192x256 .f32) (A : FVec Ideal S8192x8192 .f32) (W : FVec Ideal S256x256 .f32)
    (hX : ∀ i, ∃ x : ℝ, X i = (x : EReal)) (hA : ∀ i, ∃ x : ℝ, A i = (x : EReal))
    (hW : ∀ i, ∃ x : ℝ, W i = (x : EReal)) (r : Fin 8192) (q : Fin 256) :
    ∃ a : ℝ, agg X A W r q = (a : EReal) := by
  choose xf hxf using hX
  choose af haf using hA
  choose wf hwf using hW
  refine ⟨max (∑ l : Fin 256, (∑ j : Fin 8192, af (ix2 r j) * xf (ix2 j l)) * wf (ix2 l q)) 0, ?_⟩
  unfold agg
  simp only [hxf, haf, hwf, ← EReal.coe_mul, ERealFold.coe_sum]
  rw [← EReal.coe_zero]
  exact (EReal.coe_strictMono.monotone.map_max).symm

/-- Where the data, the aggregate and the gate are real, the two arrangements are one function: the distributive
    law of the reals,  x + s·(a − x) = s·a + x − s·x. -/
theorem G_eq_R (X : FVec Ideal S8192x256 .f32) (A : FVec Ideal S8192x8192 .f32) (W : FVec Ideal S256x256 .f32)
    (s : FVec Ideal S8192x1 .f32)
    (hX : ∀ i, ∃ x : ℝ, X i = (x : EReal)) (hA : ∀ i, ∃ x : ℝ, A i = (x : EReal))
    (hW : ∀ i, ∃ x : ℝ, W i = (x : EReal)) (hs : ∀ i, ∃ x : ℝ, s i = (x : EReal)) :
    G X A W s = R X A W s := by
  funext i
  obtain ⟨x, hx⟩ := hX i
  obtain ⟨σ, hσ⟩ := hs (ix2 (i 0) (0 : Fin 1))
  obtain ⟨a, ha⟩ := agg_real X A W hX hA hW (i 0) (i 1)
  show X i + s (ix2 (i 0) (0 : Fin 1)) * (agg X A W (i 0) (i 1) - X i)
    = s (ix2 (i 0) (0 : Fin 1)) * agg X A W (i 0) (i 1) + X i - s (ix2 (i 0) (0 : Fin 1)) * X i
  rw [hx, hσ, ha]
  simp only [← EReal.coe_sub, ← EReal.coe_mul, ← EReal.coe_add]
  congr 1
  ring

/-! ## The gate -/

/-- the per-row gate  sigmoid(wg[0]) · sigmoid(wl[r]),  as the host operations of both programs compute it -/
def gate [Cert.KernelIdeal.Facts] {F : FTy → Type} [FloatOps F] (wg : Vec F S1 .f32) (wl : Vec F S8192 .f32) :
    FVec F S8192x1 .f32 :=
  broadcastInDim S8192x1 ![0] Facts₀.bcast_S8192_S8192x1_0
    (mulf
      (broadcastInDim S8192 ![0] Facts₀.bcast_S1_S8192_0
        (Host.divf (broadcastInDim S1 ![] Facts₀.bcast_S_S1 (constant S_ .f32 0x3F800000#32))
          (addf (broadcastInDim S1 ![] Facts₀.bcast_S_S1 (constant S_ .f32 0x3F800000#32)) (Host.exp (Host.negf wg)))))
      (Host.divf (broadcastInDim S8192 ![] Facts₀.bcast_S_S8192 (constant S_ .f32 0x3F800000#32))
        (addf (broadcastInDim S8192 ![] Facts₀.bcast_S_S8192 (constant S_ .f32 0x3F800000#32)) (Host.exp (Host.negf wl)))))

/-- A broadcast of an array of reals is an array of reals: each entry of the result is an entry of the operand. -/
theorem bcast_real {s t : Shape} (dims : Fin s.rank → Fin t.rank) (h : s.BroadcastsInDim t dims) (x : FVec Ideal s .f32)
    (hx : ∀ i, ∃ y : ℝ, x i = (y : EReal)) : ∀ j, ∃ y : ℝ, broadcastInDim t dims h x j = (y : EReal) :=
  fun j => hx _

/-- An entrywise product of two arrays of reals is an array of reals. -/
theorem mul_real {s : Shape} (a b : FVec Ideal s .f32) (ha : ∀ i, ∃ y : ℝ, a i = (y : EReal))
    (hb : ∀ i, ∃ y : ℝ, b i = (y : EReal)) : ∀ i, ∃ y : ℝ, mulf a b i = (y : EReal) := by
  intro i
  obtain ⟨u, hu⟩ := ha i
  obtain ⟨v, hv⟩ := hb i
  exact ⟨u * v, by rw [mulf_apply, hu, hv, EReal.coe_mul]⟩

/-- The sigmoid  1 / (1 + exp(−t))  of a real t is the real  (1 + exp(−t))⁻¹: the exponential is a positive real,
    so the divisor is a nonzero real and the quotient is the real reciprocal. The splat constant is the number one. -/
theorem sigmoid_real {s : Shape} (h : S_.BroadcastsInDim s (![] : Fin 0 → Fin s.rank)) (v : FVec Ideal s .f32)
    (hv : ∀ i, ∃ y : ℝ, v i = (y : EReal)) :
    ∀ i, ∃ y : ℝ, Host.divf (broadcastInDim s ![] h (constant S_ .f32 0x3F800000#32))
      (addf (broadcastInDim s ![] h (constant S_ .f32 0x3F800000#32)) (Host.exp (Host.negf v))) i = (y : EReal) := by
  intro i
  obtain ⟨t, ht⟩ := hv i
  refine ⟨(1 + Real.exp (-t))⁻¹, ?_⟩
  show Ideal.div (Ideal.ofBits .f32 0x3F800000#32) (Ideal.ofBits .f32 0x3F800000#32 + Ideal.exp (-(v i))) = _
  rw [Ideal.ofBits_one_f32, ht]
  exact Ideal.logistic_coe (r := t)

/-- The gate of real weights is real at every index. -/
theorem gate_real [Cert.KernelIdeal.Facts] (wg : Vec Ideal S1 .f32) (wl : Vec Ideal S8192 .f32)
    (hg : ∀ i, ∃ x : ℝ, wg i = (x : EReal)) (hl : ∀ i, ∃ x : ℝ, wl i = (x : EReal)) :
    ∀ i, ∃ y : ℝ, gate (F := Ideal) wg wl i = (y : EReal) := by
  intro i
  exact bcast_real _ _ _ (mul_real _ _ (bcast_real _ _ _ (sigmoid_real _ wg hg)) (sigmoid_real _ wl hl)) i

end Cert.Spec

end
-- ==== Proof.KI.Gate.lean ====
/-
  The gate array as the region finds it: the nineteen host operations before the region compute, from the two
  weight arrays as launched, the per-row gate  sigmoid(wg[0]) · sigmoid(wl[r])  (sigmoid(t) = 1 / (1 + exp(−t)))
  and leave it in the array the fifth window reads. Each operation's result buffer holds its function of its
  operands' buffers, and no operation writes the two weight arrays, so the composed term is the gate of the
  launch contents.
-/
import proofs.«144806_j56341380989597_1_alg».proof.Proof.KI.Shared
import proofs.«144806_j56341380989597_1_alg».proof.Proof.Spec
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- When the region is entered, the gate array holds the gate of the two weight arrays as launched. -/
theorem V_gate (c : Dev nD) :
    V m c main_v14 = Cert.Spec.gate (F := F) (m ((c : Thread nD τ).loc main_arg2)) (m ((c : Thread nD τ).loc main_arg3)) := by
  show StableHlo.after hostOps0 (fun b => m (c, b)) (Proc.devRef .tc main_v14) = _
  after_results
  rfl

end Cert.KernelIdeal.Fr

end
-- ==== Proof.Val.Blocks.lean ====
/-
  Each input window's block, read at an entry, is the window's array read at the entry the block's offset puts it
  at: on every axis a block's coordinate in the array is the block's index times the block's extent plus the
  coordinate inside the block. Point t of the 8 x 4 grid has row tile t / 4 and reduction step t % 4.
-/
import proofs.«144806_j56341380989597_1_alg».proof.Proof.KI.FrameDefs
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Fr

variable {F : FTy → Type} [FloatOps F]

variable (m : (ℓ : Loc nD τ sig) → Buf (Elt F) ℓ)

/-- The grid has thirty-two points. -/
theorem pt_lt (t : Fin cfg0.N) : t.val < 32 := lt_of_lt_of_eq t.isLt (show cfg0.N = 32 from N_0)

/-! ## The index maps, decided over the grid -/

/-- The adjacency block: row tile, reduction step. -/
theorem idx0 : ∀ t : Fin cfg0.N, win0_0.index t (0 : Fin 2) = t.val / 4 ∧ win0_0.index t (1 : Fin 2) = t.val % 4 :=
  (by decide +kernel : ∀ t : Fin grid0.N, _)
/-- The contracted feature rows: reduction step, all columns. -/
theorem idx1 : ∀ t : Fin cfg0.N, win0_1.index t (0 : Fin 2) = t.val % 4 ∧ win0_1.index t (1 : Fin 2) = 0 :=
  (by decide +kernel : ∀ t : Fin grid0.N, _)
/-- The residual feature rows: row tile, all columns. -/
theorem idx2 : ∀ t : Fin cfg0.N, win0_2.index t (0 : Fin 2) = t.val / 4 ∧ win0_2.index t (1 : Fin 2) = 0 :=
  (by decide +kernel : ∀ t : Fin grid0.N, _)
/-- The weight matrix: whole. -/
theorem idx3 : ∀ t : Fin cfg0.N, win0_3.index t (0 : Fin 2) = 0 ∧ win0_3.index t (1 : Fin 2) = 0 :=
  (by decide +kernel : ∀ t : Fin grid0.N, _)
/-- The gate column: row tile. -/
theorem idx4 : ∀ t : Fin cfg0.N, win0_4.index t (0 : Fin 2) = t.val / 4 ∧ win0_4.index t (1 : Fin 2) = 0 :=
  (by decide +kernel : ∀ t : Fin grid0.N, _)

/-! ## The blocks as the arrays at an offset -/

/-- The adjacency block of point t at (p, j) is the adjacency matrix at row 1024 (t / 4) + p, column 2048 (t % 4) + j. -/
theorem iblk0_apply (c : Dev nD) (t : Fin cfg0.N) (p : Fin 1024) (j : Fin 2048) :
    iblk m c 0 t (ix2 p j) = V m c main_arg1 (ix2 (⟨1024 * (t.val / 4) + p.val, by have := pt_lt t; omega⟩ : Fin 8192) (⟨2048 * (t.val % 4) + j.val, by omega⟩ : Fin 8192)) := by
  obtain ⟨e0, e1⟩ := idx0 t
  unfold iblk
  rw [View.read_apply]
  show V m c main_arg1 _ = V m c main_arg1 _
  congr 1
  funext a
  apply Fin.ext
  match a with
  | ⟨0, _⟩ => show win0_0.index t (0 : Fin 2) * 1024 + 1 * p.val = 1024 * (t.val / 4) + p.val; rw [e0]; omega
  | ⟨1, _⟩ => show win0_0.index t (1 : Fin 2) * 2048 + 1 * j.val = 2048 * (t.val % 4) + j.val; rw [e1]; omega

/-- The contracted feature block of point t at (j, q) is the feature matrix at row 2048 (t % 4) + j, column q. -/
theorem iblk1_apply (c : Dev nD) (t : Fin cfg0.N) (j : Fin 2048) (q : Fin 256) :
    iblk m c 1 t (ix2 j q) = V m c main_arg0 (ix2 (⟨2048 * (t.val % 4) + j.val, by omega⟩ : Fin 8192) q) := by
  obtain ⟨e0, e1⟩ := idx1 t
  unfold iblk
  rw [View.read_apply]
  show V m c main_arg0 _ = V m c main_arg0 _
  congr 1
  funext a
  apply Fin.ext
  match a with
  | ⟨0, _⟩ => show win0_1.index t (0 : Fin 2) * 2048 + 1 * j.val = 2048 * (t.val % 4) + j.val; rw [e0]; omega
  | ⟨1, _⟩ => show win0_1.index t (1 : Fin 2) * 256 + 1 * q.val = q.val; rw [e1]; omega

/-- The residual feature block of point t at (p, q) is the feature matrix at row 1024 (t / 4) + p, column q. -/
theorem iblk2_apply (c : Dev nD) (t : Fin cfg0.N) (p : Fin 1024) (q : Fin 256) :
    iblk m c 2 t (ix2 p q) = V m c main_arg0 (ix2 (⟨1024 * (t.val / 4) + p.val, by have := pt_lt t; omega⟩ : Fin 8192) q) := by
  obtain ⟨e0, e1⟩ := idx2 t
  unfold iblk
  rw [View.read_apply]
  show V m c main_arg0 _ = V m c main_arg0 _
  congr 1
  funext a
  apply Fin.ext
  match a with
  | ⟨0, _⟩ => show win0_2.index t (0 : Fin 2) * 1024 + 1 * p.val = 1024 * (t.val / 4) + p.val; rw [e0]; omega
  | ⟨1, _⟩ => show win0_2.index t (1 : Fin 2) * 256 + 1 * q.val = q.val; rw [e1]; omega

/-- The weight block is the weight matrix at every point. -/
theorem iblk3_apply (c : Dev nD) (t : Fin cfg0.N) (l q : Fin 256) :
    iblk m c 3 t (ix2 l q) = V m c main_arg4 (ix2 l q) := by
  obtain ⟨e0, e1⟩ := idx3 t
  unfold iblk
  rw [View.read_apply]
  show V m c main_arg4 _ = V m c main_arg4 _
  congr 1
  funext a
  apply Fin.ext
  match a with
  | ⟨0, _⟩ => show win0_3.index t (0 : Fin 2) * 256 + 1 * l.val = l.val; rw [e0]; omega
  | ⟨1, _⟩ => show win0_3.index t (1 : Fin 2) * 256 + 1 * q.val = q.val; rw [e1]; omega

/-- The gate block of point t at row p is the gate column at row 1024 (t / 4) + p. -/
theorem iblk4_apply (c : Dev nD) (t : Fin cfg0.N) (p : Fin 1024) :
    iblk m c 4 t (ix2 p (0 : Fin 1)) = V m c main_v14 (ix2 (⟨1024 * (t.val / 4) + p.val, by have := pt_lt t; omega⟩ : Fin 8192) (0 : Fin 1)) := by
  obtain ⟨e0, e1⟩ := idx4 t
  unfold iblk
  rw [View.read_apply]
  show V m c main_v14 _ = V m c main_v14 _
  congr 1
  funext a
  apply Fin.ext
  match a with
  | ⟨0, _⟩ => show win0_4.index t (0 : Fin 2) * 1024 + 1 * p.val = 1024 * (t.val / 4) + p.val; rw [e0]; omega
  | ⟨1, _⟩ => show win0_4.index t (1 : Fin 2) * 1 + 1 * (0 : Fin 1).val = (0 : Fin 1).val; rw [e1]; omega

end Cert.KernelIdeal.Val

end
-- ==== Proof.KI.Pieces.lean ====
/-
  Each run's stores, read back, are the body's arithmetic.

  At a first step of the reduction axis the accumulator is stored twice: the zero block, then the update of what was
  just stored; the later store covers, and its load reads the zero block back. At every other step the accumulator is
  stored once, with the update of the contents it was entered with. At a last step the output's staging buffer is
  stored once more, with the gated residual of the accumulator just updated. Every store and every load goes through
  the whole buffer at zero offsets, so a store leaves its payload and a load reads the contents.
-/
import proofs.«144806_j56341380989597_1_alg».proof.Proof.KI.Outs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every store and load of the body: zero on both axes. -/
theorem offsets_zero : (![0, 0] : Fin 2 → Nat) = fun _ => 0 := funext fun a => by fin_cases a <;> rfl

/-- A first step leaves in the accumulator the update of the zero block by the product of the point's two blocks. -/
theorem sout0_A_0_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x2048 .f32) (x1 : Vec F S2048x256 .f32) (x2 : Vec F S1024x256 .f32) (x3 : Vec F S256x256 .f32) (x4 : Vec F S1024x1 .f32) :
    sout0_A_0 c i arg2 harg2 arg3 harg3 arg4 harg4 arg5 harg5 arg6 harg6 arg7 harg7 arg8 harg8 hc0 hc1 x0 x1 x2 x3 x4 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x256) offsets_zero, View.readCov_unit_zero (S := S1024x256) _ offsets_zero]
  simp only [View.readAt_eq_ld, harg2.read_unread, harg3.read_unread,
    View.ld_unit_zero (S := S1024x2048) offsets_zero, View.ld_unit_zero (S := S2048x256) offsets_zero]

/-- A middle step leaves in the accumulator its contents updated by the product of the point's two blocks. -/
theorem sout0_B_0_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    sout0_B_0 c i arg2 harg2 arg3 harg3 arg4 harg4 arg5 harg5 arg6 harg6 arg7 harg7 arg8 harg8 hc0 hc1 x0 x1 x2 x3 x4 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1024x256) offsets_zero]
  simp only [View.readAt_eq_ld, harg2.read_unread, harg3.read_unread, harg8.read_unread,
    View.ld_unit_zero (S := S1024x2048) offsets_zero, View.ld_unit_zero (S := S2048x256) offsets_zero,
    View.ld_unit_zero (S := S1024x256) offsets_zero]

/-- A last step leaves in the accumulator the same update. -/
theorem sout0_C_0_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    sout0_C_0 c i arg2 harg2 arg3 harg3 arg4 harg4 arg5 harg5 arg6 harg6 arg7 harg7 arg8 harg8 hc0 hc1 x0 x1 x2 x3 x4 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1024x256) offsets_zero]
  simp only [View.readAt_eq_ld, harg2.read_unread, harg3.read_unread, harg8.read_unread,
    View.ld_unit_zero (S := S1024x2048) offsets_zero, View.ld_unit_zero (S := S2048x256) offsets_zero,
    View.ld_unit_zero (S := S1024x256) offsets_zero]

/-- A last step leaves in the output's staging buffer the gated residual of the updated accumulator: the residual
    rows plus the gate times the difference between the rectified product with the weights and those rows. -/
theorem out0_C_5_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x2048 .f32) (x1 : Vec F S2048x256 .f32) (x2 : Vec F S1024x256 .f32) (x3 : Vec F S256x256 .f32) (x4 : Vec F S1024x1 .f32) (xs0 : Vec F S1024x256 .f32) :
    out0_C_5 c i arg2 harg2 arg3 harg3 arg4 harg4 arg5 harg5 arg6 harg6 arg7 harg7 arg8 harg8 hc0 hc1 x0 x1 x2 x3 x4 xs0 = k0_pay3 (k0_pay2 x0 x1 xs0) x3 x4 x2 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1024x256) offsets_zero]
  simp only [View.readAt_eq_ld, harg2.read_unread, harg3.read_unread, harg4.read_unread, harg5.read_unread,
    harg6.read_unread, harg8.read_unread, View.readCov_unit_zero (S := S1024x256) _ offsets_zero,
    View.ld_unit_zero (S := S1024x2048) offsets_zero, View.ld_unit_zero (S := S2048x256) offsets_zero,
    View.ld_unit_zero (S := S1024x256) offsets_zero, View.ld_unit_zero (S := S256x256) offsets_zero,
    View.ld_unit_zero (S := S1024x1) offsets_zero]

end Cert.KernelIdeal.Fr

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.Val.PayIdx.lean ====
/-
  The body's three payloads read at one entry, over the extended reals.

  The reset block is zero everywhere. The update of an accumulator block by the product of a [1024, 2048] block with
  a [2048, 256] block is, at entry (p, q), the accumulator's entry plus the sum over j of left (p, j) · right (j, q):
  the change of format before the product is the identity over the extended reals, and a product into a zero
  accumulator is the textbook contraction. The output block is, at entry (p, q), the residual entry plus the gate of
  row p times the difference between the rectified entry of the accumulator's product with the weights and the
  residual entry; the gate is a [1024, 1] column, read at (p, 0) whatever q is.
-/
import proofs.«144806_j56341380989597_1_alg».proof.Proof.Gen.KernelIdeal.Skeleton
import proofs.«144806_j56341380989597_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx

/-- The body's first product is the plain contraction of a [1024, 2048] by a [2048, 256] operand. -/
theorem dotA_eq : dot_S1024x2048_S2048x256_S1024x256_1_0_0_1_n_n = DotDims.plain 1024 2048 256 := rfl
/-- The body's second product is the plain contraction of a [1024, 256] by a [256, 256] operand. -/
theorem dotW_eq : dot_S1024x256_S256x256_S1024x256_1_0_0_1_n_n = DotDims.plain 1024 256 256 := rfl

/-- The first product into the zero block, at entry (p, q). -/
theorem matmulA_apply (l : FVec Ideal S1024x2048 .bf16) (r : FVec Ideal S2048x256 .bf16) (p : Fin 1024) (q : Fin 256) :
    matmul dot_S1024x2048_S2048x256_S1024x256_1_0_0_1_n_n none l r (constant S1024x256 .f32 0x00000000#32) (ix2 p q)
      = ∑ j : Fin 2048, l (ix2 p j) * r (ix2 j q) := by
  rw [dotA_eq]
  exact Cert.Lib.PlainDot.matmul_zero_apply 1024 2048 256 none l r p q

/-- The second product into the zero block, at entry (p, q). -/
theorem matmulW_apply (l : FVec Ideal S1024x256 .bf16) (r : FVec Ideal S256x256 .bf16) (p : Fin 1024) (q : Fin 256) :
    matmul dot_S1024x256_S256x256_S1024x256_1_0_0_1_n_n none l r (constant S1024x256 .f32 0x00000000#32) (ix2 p q)
      = ∑ j : Fin 256, l (ix2 p j) * r (ix2 j q) := by
  rw [dotW_eq]
  exact Cert.Lib.PlainDot.matmul_zero_apply 1024 256 256 none l r p q

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset block is zero at every entry. -/
theorem pay1_apply (p : Fin 1024) (q : Fin 256) : k0_pay1 (F := Ideal) (ix2 p q) = 0 := by
  unfold k0_pay1
  simp only [shapeCast_self, broadcast_apply]
  exact Ideal.ofBits_zero_f32

/-- The updated accumulator at entry (p, q): the entry it had plus row p of the left block against column q of the
    right block. -/
theorem pay2_apply (x0 : Vec Ideal S1024x2048 .f32) (x1 : Vec Ideal S2048x256 .f32) (acc : Vec Ideal S1024x256 .f32) (p : Fin 1024) (q : Fin 256) :
    k0_pay2 (F := Ideal) x0 x1 acc (ix2 p q) = acc (ix2 p q) + ∑ j : Fin 2048, x0 (ix2 p j) * x1 (ix2 j q) := by
  unfold k0_pay2
  simp only [shapeCast_self, addf_apply]
  refine congrArg (acc (ix2 p q) + ·) ?_
  exact matmulA_apply (truncf .bf16 x0 _) (truncf .bf16 x1 _) p q

/-- The output block at entry (p, q): the residual entry plus the gate of row p times the rectified entry of the
    accumulator's product with the weights less the residual entry. -/
theorem pay3_apply (acc : Vec Ideal S1024x256 .f32) (w : Vec Ideal S256x256 .f32) (s : Vec Ideal S1024x1 .f32) (x : Vec Ideal S1024x256 .f32) (p : Fin 1024) (q : Fin 256) :
    k0_pay3 (F := Ideal) acc w s x (ix2 p q) = x (ix2 p q) + s (ix2 p (0 : Fin 1)) * (max (∑ l : Fin 256, acc (ix2 p l) * w (ix2 l q)) 0 - x (ix2 p q)) := by
  unfold k0_pay3
  simp only [shapeCast_self, addf_apply, mulf_apply, subf_apply, maximumf_apply, broadcast_apply]
  have hb : broadcastTo S1024x256 s broadcasts_S1024x1_S1024x256 (ix2 p q) = s (ix2 p (0 : Fin 1)) :=
    broadcastTo_a1_ab_apply s broadcasts_S1024x1_S1024x256 p q
  have hm : matmul (F := Ideal) dot_S1024x256_S256x256_S1024x256_1_0_0_1_n_n none
      (truncf (F := Ideal) (φ := .f32) .bf16 acc bitsLt_bf16_f32) (truncf (F := Ideal) (φ := .f32) .bf16 w bitsLt_bf16_f32)
      (constant S1024x256 .f32 0x00000000#32) (ix2 p q)
        = ∑ l : Fin 256, acc (ix2 p l) * w (ix2 l q) :=
    matmulW_apply (truncf (F := Ideal) (φ := .f32) .bf16 acc bitsLt_bf16_f32)
      (truncf (F := Ideal) (φ := .f32) .bf16 w bitsLt_bf16_f32) p q
  have hzero : (FloatOps.ofBits (F := Ideal) .f32 0x00000000#32) = 0 := Ideal.ofBits_zero_f32
  rw [hb, hm, hzero]

end Cert.KernelIdeal.Val

end
-- ==== Proof.LibBlockSum.lean ====
/-
  Sums over an axis cut into equal blocks, on any commutative additive monoid, generic in the extents.

  An axis of n = a * b positions is a blocks of b positions each: position p of block i is position b * i + p of the
  axis, and every position is of that form exactly once. So the sum of a function over the axis is the sum over the
  blocks of its sums inside each block; and for a function of two such axes, the sum over all pairs of positions is the
  sum over the pairs of blocks (the tiles) of the sums inside each tile.
-/
import Mathlib.Algebra.BigOperators.Fin
import Mathlib.Logic.Equiv.Fin.Basic

open scoped BigOperators

namespace Cert.Lib.BlockSum

/-- Position p of block i of an axis of n = a * b positions cut into a blocks of b. -/
def blockPos (a b n : ℕ) (h : a * b = n) : Fin a × Fin b ≃ Fin n :=
  finProdFinEquiv.trans (finCongr h)

/-- It is position b * i + p of the axis. -/
theorem blockPos_val (a b n : ℕ) (h : a * b = n) (i : Fin a) (p : Fin b) :
    (blockPos a b n h (i, p)).val = p.val + b * i.val := rfl

/-- A sum over an axis is the sum over its blocks of the sums inside each block. -/
theorem sum_blocks {M : Type*} [AddCommMonoid M] (a b n : ℕ) (h : a * b = n) (f : Fin n → M) :
    ∑ i : Fin a, ∑ p : Fin b, f (blockPos a b n h (i, p)) = ∑ P : Fin n, f P := by
  rw [← Fintype.sum_prod_type' (fun i p => f (blockPos a b n h (i, p)))]
  exact Equiv.sum_comp (blockPos a b n h) f

/-- A sum over all pairs of positions of two axes is the sum over the tiles (a block of the first axis against a block
    of the second) of the sums over each tile's pairs. -/
theorem sum_tiles {M : Type*} [AddCommMonoid M] (a b n a' b' n' : ℕ) (h : a * b = n) (h' : a' * b' = n')
    (L : Fin n → Fin n' → M) :
    ∑ i : Fin a, ∑ j : Fin a', ∑ p : Fin b, ∑ q : Fin b', L (blockPos a b n h (i, p)) (blockPos a' b' n' h' (j, q))
      = ∑ P : Fin n, ∑ Q : Fin n', L P Q := by
  rw [← sum_blocks a b n h (fun P => ∑ Q : Fin n', L P Q)]
  refine Finset.sum_congr rfl fun i _ => ?_
  rw [Finset.sum_comm]
  refine Finset.sum_congr rfl fun p _ => ?_
  rw [← sum_blocks a' b' n' h' (fun Q => L (blockPos a b n h (i, p)) Q)]

end Cert.Lib.BlockSum
-- ==== Proof.Val.Acc.lean ====
/-
  What the output's staging buffer holds at the last step of a row tile's reduction is the specification at the
  tile's rows.

  The reduction axis has four steps. Step k of row tile i multiplies the tile's rows of A, restricted to quarter k
  of the contracted axis, by the rows of X of that quarter, and adds the product to the accumulator, which step 0
  first resets to zero. So after step 3 the accumulator holds ((0 + Q0) + Q1) + Q2 + Q3, the four quarters of the
  contraction of A's row against X's column: the whole contraction. The last step then multiplies the accumulator
  by W, clamps below at zero and blends with the residual rows of X through the row's gate.
-/
import proofs.«144806_j56341380989597_1_alg».proof.Proof.Val.Blocks
import proofs.«144806_j56341380989597_1_alg».proof.Proof.KI.Pieces
import proofs.«144806_j56341380989597_1_alg».proof.Proof.Val.PayIdx
import proofs.«144806_j56341380989597_1_alg».proof.Proof.Spec
import proofs.«144806_j56341380989597_1_alg».proof.Proof.LibBlockSum
import Mathlib.Algebra.BigOperators.Fin

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Fr

open Cert.Lib.BlockSum
open scoped BigOperators

variable (m : (ℓ : Loc nD τ sig) → Buf (Elt Ideal) ℓ)

/-! ## The accumulator and the output block, step by step -/

/-- After a first step of the reduction the accumulator holds the step's product laid on the zero block. -/
theorem acc_first (c : Dev nD) (t : Fin cfg0.N) (h0 : t.val % 4 = 0) :
    (outsAt0 (F := Ideal) m c t.val t.isLt).2 = k0_pay2 (iblk m c 0 t) (iblk m c 1 t) (k0_pay1 (F := Ideal)) := by
  rw [outsAt0_A m c t h0 (by omega)]
  dsimp only
  rw [sout0_A_0_eq]

/-- After any later step it holds the step's product laid on what the step before left. -/
theorem acc_step (c : Dev nD) (t : Fin cfg0.N) (h0 : ¬ t.val % 4 = 0) :
    (outsAt0 (F := Ideal) m c t.val t.isLt).2
      = k0_pay2 (iblk m c 0 t) (iblk m c 1 t) (outsAt0 (F := Ideal) m c (t.val - 1) (Nat.lt_of_le_of_lt (Nat.sub_le _ _) t.isLt)).2 := by
  by_cases h1 : t.val % 4 = 3
  · rw [outsAt0_C m c t h0 h1]
    dsimp only
    rw [sout0_C_0_eq]
  · rw [outsAt0_B m c t h0 h1]
    dsimp only
    rw [sout0_B_0_eq]

/-- At a last step the output block is the gated residual update of the accumulator the step leaves. -/
theorem out_last (c : Dev nD) (t : Fin cfg0.N) (h3 : t.val % 4 = 3) :
    (outsAt0 (F := Ideal) m c t.val t.isLt).1
      = k0_pay3 (outsAt0 (F := Ideal) m c t.val t.isLt).2 (iblk m c 3 t) (iblk m c 4 t) (iblk m c 2 t) := by
  rw [outsAt0_C m c t (by omega) h3]
  dsimp only
  rw [out0_C_5_eq, sout0_C_0_eq]

/-- What a point leaves depends on the point's position only. -/
theorem outsAt0_congr (c : Dev nD) {n n' : ℕ} (e : n = n') (hn : n < cfg0.N) (hn' : n' < cfg0.N) :
    outsAt0 (F := Ideal) m c n hn = outsAt0 (F := Ideal) m c n' hn' := by
  subst e; rfl

/-! ## The contraction in four quarters -/

/-- Quarter k of row r of A against column l of X: the 2048 positions of the contracted axis that step k reads. -/
def quarter (X : FVec Ideal S8192x256 .f32) (A : FVec Ideal S8192x8192 .f32) (r : Fin 8192) (l : Fin 256) (k : Fin 4) : EReal :=
  ∑ j : Fin 2048, A (ix2 r (blockPos 4 2048 8192 rfl (k, j))) * X (ix2 (blockPos 4 2048 8192 rfl (k, j)) l)

/-- Row r of A against column l of X, over the whole contracted axis. -/
def contraction (X : FVec Ideal S8192x256 .f32) (A : FVec Ideal S8192x8192 .f32) (r : Fin 8192) (l : Fin 256) : EReal :=
  ∑ J : Fin 8192, A (ix2 r J) * X (ix2 J l)

/-- The whole contraction is the four quarters added in order. -/
theorem quarters_sum (X : FVec Ideal S8192x256 .f32) (A : FVec Ideal S8192x8192 .f32) (r : Fin 8192) (l : Fin 256) :
    contraction X A r l = quarter X A r l 0 + quarter X A r l 1 + quarter X A r l 2 + quarter X A r l 3 := by
  unfold contraction
  rw [← sum_blocks 4 2048 8192 rfl (fun J => A (ix2 r J) * X (ix2 J l)), Fin.sum_univ_four]
  rfl

/-- A step's product at (p, l), its two blocks being the arrays' entries of quarter k, is quarter k. -/
theorem step_prod (X : FVec Ideal S8192x256 .f32) (A : FVec Ideal S8192x8192 .f32)
    (x0 : Vec Ideal S1024x2048 .f32) (x1 : Vec Ideal S2048x256 .f32) (r : Fin 8192) (k : Fin 4) (p : Fin 1024) (l : Fin 256)
    (e0 : ∀ j : Fin 2048, x0 (ix2 p j) = A (ix2 r (blockPos 4 2048 8192 rfl (k, j))))
    (e1 : ∀ j : Fin 2048, x1 (ix2 j l) = X (ix2 (blockPos 4 2048 8192 rfl (k, j)) l)) :
    ∑ j : Fin 2048, x0 (ix2 p j) * x1 (ix2 j l) = quarter X A r l k := by
  unfold quarter
  exact Finset.sum_congr rfl fun j _ => by rw [e0, e1]

/-- The adjacency block of a point on step k of row tile i reads quarter k of the tile's rows. -/
theorem blkA_at (c : Dev nD) (t : Fin cfg0.N) (p : Fin 1024) (r : Fin 8192) (k : Fin 4)
    (hr : r.val = 1024 * (t.val / 4) + p.val) (hk : k.val = t.val % 4) (j : Fin 2048) :
    (iblk m c 0 t : Vec Ideal S1024x2048 .f32) (ix2 p j) = (V m c main_arg1 : FVec Ideal S8192x8192 .f32) (ix2 r (blockPos 4 2048 8192 rfl (k, j))) := by
  have ea : ∀ h, (⟨1024 * (t.val / 4) + p.val, h⟩ : Fin 8192) = r := fun h => Fin.ext hr.symm
  have eb : ∀ h, (⟨2048 * (t.val % 4) + j.val, h⟩ : Fin 8192) = blockPos 4 2048 8192 rfl (k, j) := fun h =>
    Fin.ext ((by omega : 2048 * (t.val % 4) + j.val = j.val + 2048 * k.val).trans (blockPos_val 4 2048 8192 rfl k j).symm)
  rw [iblk0_apply, ea, eb]

/-- The contracted feature block of a point on step k reads quarter k of the feature rows. -/
theorem blkX_at (c : Dev nD) (t : Fin cfg0.N) (l : Fin 256) (k : Fin 4) (hk : k.val = t.val % 4) (j : Fin 2048) :
    (iblk m c 1 t : Vec Ideal S2048x256 .f32) (ix2 j l) = (V m c main_arg0 : FVec Ideal S8192x256 .f32) (ix2 (blockPos 4 2048 8192 rfl (k, j)) l) := by
  have eb : ∀ h, (⟨2048 * (t.val % 4) + j.val, h⟩ : Fin 8192) = blockPos 4 2048 8192 rfl (k, j) := fun h =>
    Fin.ext ((by omega : 2048 * (t.val % 4) + j.val = j.val + 2048 * k.val).trans (blockPos_val 4 2048 8192 rfl k j).symm)
  rw [iblk1_apply, eb]

/-- A first step leaves quarter 0 on zero. -/
theorem acc_first_apply (c : Dev nD) (t : Fin cfg0.N) (h0 : t.val % 4 = 0) (p : Fin 1024) (l : Fin 256) (r : Fin 8192)
    (hr : r.val = 1024 * (t.val / 4) + p.val) :
    ((outsAt0 (F := Ideal) m c t.val t.isLt).2 (ix2 p l) : EReal)
      = 0 + quarter (V m c main_arg0) (V m c main_arg1) r l 0 := by
  rw [acc_first m c t h0, pay2_apply, pay1_apply]
  congr 1
  exact step_prod _ _ _ _ r 0 p l (blkA_at m c t p r 0 hr (by rw [h0]; rfl)) (blkX_at m c t l 0 (by rw [h0]; rfl))

/-- A later step, on step k of the reduction, adds quarter k to what the point before (s) left. -/
theorem acc_step_apply (c : Dev nD) (t s : Fin cfg0.N) (hs : t.val = s.val + 1) (h0 : ¬ t.val % 4 = 0) (p : Fin 1024) (l : Fin 256)
    (r : Fin 8192) (k : Fin 4) (hr : r.val = 1024 * (t.val / 4) + p.val) (hk : k.val = t.val % 4) :
    ((outsAt0 (F := Ideal) m c t.val t.isLt).2 (ix2 p l) : EReal)
      = (outsAt0 (F := Ideal) m c s.val s.isLt).2 (ix2 p l) + quarter (V m c main_arg0) (V m c main_arg1) r l k := by
  rw [acc_step m c t h0, pay2_apply, outsAt0_congr m c (show t.val - 1 = s.val by omega) _ s.isLt]
  congr 1
  exact step_prod _ _ _ _ r k p l (blkA_at m c t p r k hr hk) (blkX_at m c t l k hk)

/-! ## The output block at a last step -/

/-- At the last step of a row tile the accumulator holds, at (p, l), row r of A against column l of X, r the tile's row p. -/
theorem acc_last_apply (c : Dev nD) (t : Fin cfg0.N) (h3 : t.val % 4 = 3) (p : Fin 1024) (l : Fin 256) (r : Fin 8192)
    (hr : r.val = 1024 * (t.val / 4) + p.val) :
    ((outsAt0 (F := Ideal) m c t.val t.isLt).2 (ix2 p l) : EReal)
      = contraction (V m c main_arg0) (V m c main_arg1) r l := by
  have h32 := pt_lt t
  have hN : cfg0.N = 32 := N_0
  obtain ⟨t2, ht2⟩ : ∃ s : Fin cfg0.N, t.val = s.val + 1 := ⟨⟨t.val - 1, by omega⟩, by show t.val = t.val - 1 + 1; omega⟩
  obtain ⟨t1, ht1⟩ : ∃ s : Fin cfg0.N, t2.val = s.val + 1 := ⟨⟨t2.val - 1, by omega⟩, by show t2.val = t2.val - 1 + 1; omega⟩
  obtain ⟨t0, ht0⟩ : ∃ s : Fin cfg0.N, t1.val = s.val + 1 := ⟨⟨t1.val - 1, by omega⟩, by show t1.val = t1.val - 1 + 1; omega⟩
  rw [acc_step_apply m c t t2 ht2 (by omega) p l r 3 (by omega) (by rw [h3]; rfl),
    acc_step_apply m c t2 t1 ht1 (by omega) p l r 2 (by omega) (by show 2 = t2.val % 4; omega),
    acc_step_apply m c t1 t0 ht0 (by omega) p l r 1 (by omega) (by show 1 = t1.val % 4; omega),
    acc_first_apply m c t0 (by omega) p l r (by omega), zero_add, quarters_sum]

/-- The last step's payload, its accumulator holding the contraction at the tile's row and its three blocks being the
    arrays' entries there, is the specification at that row. -/
theorem out_val (X : FVec Ideal S8192x256 .f32) (A : FVec Ideal S8192x8192 .f32) (W : FVec Ideal S256x256 .f32)
    (s : FVec Ideal S8192x1 .f32) (acc : Vec Ideal S1024x256 .f32) (w : Vec Ideal S256x256 .f32) (sb : Vec Ideal S1024x1 .f32)
    (x : Vec Ideal S1024x256 .f32) (p : Fin 1024) (q : Fin 256) (r : Fin 8192)
    (hacc : ∀ l : Fin 256, acc (ix2 p l) = contraction X A r l) (hw : ∀ l : Fin 256, w (ix2 l q) = W (ix2 l q))
    (hs : sb (ix2 p (0 : Fin 1)) = s (ix2 r (0 : Fin 1))) (hx : x (ix2 p q) = X (ix2 r q)) :
    k0_pay3 (F := Ideal) acc w sb x (ix2 p q) = Cert.Spec.G X A W s (ix2 r q) := by
  have hsum : ∑ l : Fin 256, acc (ix2 p l) * w (ix2 l q) = ∑ l : Fin 256, (∑ j : Fin 8192, A (ix2 r j) * X (ix2 j l)) * W (ix2 l q) :=
    Finset.sum_congr rfl fun l _ => by rw [hacc, hw, contraction]
  rw [pay3_apply, Cert.Spec.G_apply, hs, hx, hsum]
  rfl

/-- What the output's staging buffer holds at the last step of a row tile is the specification at the tile's rows. -/
theorem outAt_last (c : Dev nD) (t : Fin cfg0.N) (h3 : t.val % 4 = 3) (p : Fin 1024) (q : Fin 256) :
    (outsAt0 (F := Ideal) m c t.val t.isLt).1 (ix2 p q)
      = Cert.Spec.G (V m c main_arg0) (V m c main_arg1) (V m c main_arg4) (V m c main_v14) (ix2 (⟨1024 * (t.val / 4) + p.val, by have := pt_lt t; omega⟩ : Fin 8192) q) := by
  rw [out_last m c t h3]
  exact out_val _ _ _ _ _ _ _ _ p q _ (fun l => acc_last_apply m c t h3 p l _ rfl) (fun l => iblk3_apply m c t l q)
    (iblk4_apply m c t p) (iblk2_apply m c t p q)

/-- The same with the row's bound given from outside. -/
theorem outAt_last_of (c : Dev nD) (t : Fin cfg0.N) (h3 : t.val % 4 = 3) (p : Fin 1024) (q : Fin 256)
    (hr : 1024 * (t.val / 4) + p.val < 8192) :
    (outsAt0 (F := Ideal) m c t.val t.isLt).1 (ix2 p q)
      = Cert.Spec.G (V m c main_arg0) (V m c main_arg1) (V m c main_arg4) (V m c main_v14) (ix2 (⟨1024 * (t.val / 4) + p.val, hr⟩ : Fin 8192) q) :=
  outAt_last m c t h3 p q

end Cert.KernelIdeal.Val

end
-- ==== Proof.Val.Final.lean ====
/-
  From blocks to the array. The output is written back, one row tile of 1024 rows at a time, at the last step of
  the reduction axis (the grid points t with t % 4 = 3; the tile written is rows 1024 * (t / 4) … 1024 * (t / 4) + 1023,
  all 256 columns). If what each such point stores is its row tile of ONE function of the whole array's indices,
  then, the eight tiles covering the 8192 rows, the output array ends holding that function.
-/
import proofs.«144806_j56341380989597_1_alg».proof.Proof.KI.FrameDefs
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Fr

variable (m : (ℓ : Loc nD τ sig) → Buf (Elt Ideal) ℓ)

/-! ## The output's row tiles -/

/-- The output window's block index at grid point `t`, decided over the 32 points: row tile `t / 4`, the one
    column tile. -/
theorem idx5 : ∀ t : Fin cfg0.N, win0_5.index t (0 : Fin 2) = t.val / 4 ∧ win0_5.index t (1 : Fin 2) = 0 :=
  (by decide +kernel : ∀ t : Fin grid0.N, _)

/-- Element `(p, q)` of the output's block at point `t` is element `(1024 * (t / 4) + p, q)` of the array. -/
theorem emb5 (t : Fin cfg0.N) (p : Fin 1024) (q : Fin 256) (hr : 1024 * (t.val / 4) + p.val < 8192) :
    ((cfg0.win 5).blk t).view.emb (ix2 p q) = ix2 ⟨1024 * (t.val / 4) + p.val, hr⟩ q := by
  obtain ⟨e0, e1⟩ := idx5 t
  funext a
  apply Fin.ext
  match a with
  | ⟨0, _⟩ => show win0_5.index t (0 : Fin 2) * 1024 + 1 * p.val = 1024 * (t.val / 4) + p.val; omega
  | ⟨1, _⟩ => show win0_5.index t (1 : Fin 2) * 256 + 1 * q.val = q.val; omega

/-- What a point that writes the output back writes is its row tile of `Gfun`, when the staging buffer holds that
    tile after every such point. -/
theorem flushed5_eq (c : Dev nD) (Gfun : FVec Ideal S8192x256 .f32)
    (hflush : ∀ (t : Fin cfg0.N) (h3 : t.val % 4 = 3) (p : Fin 1024) (q : Fin 256) (hr : 1024 * (t.val / 4) + p.val < 8192),
        (outsAt0 (F := Ideal) m c t.val t.isLt).1 (ix2 p q) = Gfun (ix2 ⟨1024 * (t.val / 4) + p.val, hr⟩ q))
    (t : Fin cfg0.N) (hf : (cfg0.win 5).flush t = true) :
    (dats (F := Ideal) m 0 c).flushed 5 t = ((cfg0.win 5).blk t).view.read (Elt Ideal) Gfun := by
  have h3 : t.val % 4 = 3 := (flush0_5 t).mp hf
  have hN : cfg0.N = 32 := N_0
  show (cfg0.win 5).cut (grid0.coords t) ((dats (F := Ideal) m 0 c).after 5 t) = _
  rw [after0_5]
  funext y
  obtain ⟨p, q, rfl⟩ : ∃ (p : Fin 1024) (q : Fin 256), y = ix2 p q := ⟨y 0, y 1, eq_ix2 y⟩
  have hr : 1024 * (t.val / 4) + p.val < 8192 := by
    have ht := t.isLt
    have hp := p.isLt
    omega
  show (outsAt0 (F := Ideal) m c t.val t.isLt).1 (ix2 p q) = Gfun (((cfg0.win 5).blk t).view.emb (ix2 p q))
  rw [hflush t h3 p q hr, emb5 t p q hr]

/-- An index of the array is in point `t`'s block iff each coordinate is in the block's range on its axis. -/
theorem mem_blk5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v15).slice (win0_5.rect t)).set ↔ _
  rw [View.set_slice_whole, Rect.mem_set_unit]
  exact Iff.rfl

/-- Every index of the array is in the block of a point that writes back: row `r` is in the tile of the last
    reduction step of row tile `r / 1024`. -/
theorem cover5 (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 32 := N_0
  have htlt : 4 * ((i 0).val / 1024) + 3 < cfg0.N := by rw [hN]; omega
  refine ⟨⟨4 * ((i 0).val / 1024) + 3, htlt⟩, (flush0_5 _).mpr (by show (4 * ((i 0).val / 1024) + 3) % 4 = 3; omega), ?_⟩
  rw [mem_blk5]
  obtain ⟨e0, e1⟩ := idx5 ⟨4 * ((i 0).val / 1024) + 3, htlt⟩
  have e0' : win0_5.index ⟨4 * ((i 0).val / 1024) + 3, htlt⟩ (0 : Fin 2) = (i 0).val / 1024 := by
    rw [e0]; show (4 * ((i 0).val / 1024) + 3) / 4 = (i 0).val / 1024; omega
  intro a
  match a with
  | ⟨0, _⟩ =>
    show win0_5.index ⟨4 * ((i 0).val / 1024) + 3, htlt⟩ (0 : Fin 2) * 1024 ≤ (i 0).val ∧ (i 0).val < win0_5.index ⟨4 * ((i 0).val / 1024) + 3, htlt⟩ (0 : Fin 2) * 1024 + 1024
    rw [e0']; omega
  | ⟨1, _⟩ =>
    show win0_5.index ⟨4 * ((i 0).val / 1024) + 3, htlt⟩ (1 : Fin 2) * 256 ≤ (i 1).val ∧ (i 1).val < win0_5.index ⟨4 * ((i 0).val / 1024) + 3, htlt⟩ (1 : Fin 2) * 256 + 256
    rw [e1]; omega

/-! ## The array after the run -/

/-- If what every point that writes the output back stores is its row tile of `Gfun`, the output array ends
    holding `Gfun`. -/
theorem final_of (c : Dev nD) (Gfun : FVec Ideal S8192x256 .f32)
    (hflush : ∀ (t : Fin cfg0.N) (h3 : t.val % 4 = 3) (p : Fin 1024) (q : Fin 256) (hr : 1024 * (t.val / 4) + p.val < 8192),
        (outsAt0 (F := Ideal) m c t.val t.isLt).1 (ix2 p q) = Gfun (ix2 ⟨1024 * (t.val / 4) + p.val, hr⟩ q)) :
    (dats (F := Ideal) m 0 c).arrAt 5 cfg0.N = Gfun :=
  (dats (F := Ideal) m 0 c).arrAt_eq_of_cover 5 Gfun (flushed5_eq m c Gfun hflush) cover5

end Cert.KernelIdeal.Val

end
-- ==== Proof.RefSide.lean ====
/-
  The reference program's result as the specification function of the argument arrays.

  With X : [8192, 256], A : [8192, 8192], W : [256, 256], a global gate weight wg : [1] and per-row gate weights
  wl : [8192], the reference computes agg = relu((A·X)·W), the per-row gate s[r] = sigmoid(wg[0]) · sigmoid(wl[r])
  laid out as an [8192, 1] column (sigmoid x spelt 1 / (1 + exp(−x))), broadcasts s along the 256 columns, and returns
  s · agg + X − s · X. Over the extended reals every operation is the textbook one, so entry (r, q) of the result is
  s(r, 0) · max(Σ_l (Σ_j A(r, j) · X(j, l)) · W(l, q), 0) + X(r, q) − s(r, 0) · X(r, q). The gate column is carried as one
  opaque array and is only ever read at (r, 0).
-/
import proofs.«144806_j56341380989597_1_alg».proof.Proof.Gen.ReferenceIdeal.Read
import proofs.«144806_j56341380989597_1_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Idealize.ShloMosaic.StableHlo
open Cert.ReferenceIdeal Cert.ReferenceIdeal.Facts₀ Cert.ReferenceIdeal.Read

/-- The reference's per-row gate array, sigmoid of the global weight times sigmoid of the row's weight laid out as a
    column, is the specification's gate: the two are the same composition of the same operations on the same shapes. -/
theorem gate_eq [Cert.KernelIdeal.Facts] [Cert.ReferenceIdeal.Facts]
    (a2 : Vec Ideal Cert.ReferenceIdeal.S1 .f32) (a3 : Vec Ideal Cert.ReferenceIdeal.S8192 .f32) :
    val_main_v17 (F := Ideal) a2 a3 = Cert.Spec.gate (F := Ideal) a2 a3 := rfl

/-- Broadcasting the gate column along the 256 columns reads, at (r, q), the column's entry (r, 0). -/
theorem idx18_ix2 (r : Fin 8192) (q : Fin 256) : idx_main_v18 (ix2 r q) = ix2 r (0 : Fin 1) := by
  funext a; match a with | ⟨0, _⟩ => rfl | ⟨1, _⟩ => rfl

/-- The second broadcast of the gate column reads the same entry. -/
theorem idx21_ix2 (r : Fin 8192) (q : Fin 256) : idx_main_v21 (ix2 r q) = ix2 r (0 : Fin 1) := by
  funext a; match a with | ⟨0, _⟩ => rfl | ⟨1, _⟩ => rfl

/-- The outer product's left operand at (r, q), contraction position l, is entry (r, l). -/
theorem lidx1_ix2 (r : Fin 8192) (q : Fin 256) (l : Fin 256) : lidx_main_v1 (ix2 r q) l = ix2 r l := by
  funext a; match a with | ⟨0, _⟩ => rfl | ⟨1, _⟩ => rfl

/-- The outer product's right operand at (r, q), contraction position l, is entry (l, q). -/
theorem ridx1_ix2 (r : Fin 8192) (q : Fin 256) (l : Fin 256) : ridx_main_v1 (ix2 r q) l = ix2 l q := by
  funext a; match a with | ⟨0, _⟩ => rfl | ⟨1, _⟩ => rfl

/-- The inner product's left operand at (r, l), contraction position j, is entry (r, j). -/
theorem lidx0_ix2 (r : Fin 8192) (l : Fin 256) (j : Fin 8192) : lidx_main_v0 (ix2 r l) j = ix2 r j := by
  funext a; match a with | ⟨0, _⟩ => rfl | ⟨1, _⟩ => rfl

/-- The inner product's right operand at (r, l), contraction position j, is entry (j, l). -/
theorem ridx0_ix2 (r : Fin 8192) (l : Fin 256) (j : Fin 8192) : ridx_main_v0 (ix2 r l) j = ix2 j l := by
  funext a; match a with | ⟨0, _⟩ => rfl | ⟨1, _⟩ => rfl

/-- relu((A·X)·W) at (r, q): the two contractions are the textbook sums and the maximum is taken against 0. -/
theorem agg_eq [Cert.ReferenceIdeal.Facts]
    (a0 : Vec Ideal Cert.ReferenceIdeal.S8192x256 .f32) (a1 : Vec Ideal Cert.ReferenceIdeal.S8192x8192 .f32)
    (a4 : Vec Ideal Cert.ReferenceIdeal.S256x256 .f32) (r : Fin 8192) (q : Fin 256) :
    val_main_v2 (F := Ideal) a0 a1 a4 (ix2 r q) = Cert.Spec.agg a0 a1 a4 r q := by
  rw [val_main_v2_apply, val_main_call0_v0_apply, val_main_call0_cst_apply, val_main_v1_apply,
    Ideal.maximumf_def, Ideal.ofBits_def, Ideal.ofBits_zero_f32]
  unfold Cert.Spec.agg
  refine congrArg (fun t => max t 0) (Finset.sum_congr rfl fun l _ => ?_)
  rw [lidx1_ix2, ridx1_ix2, val_main_v0_apply]
  refine congrArg (fun t => t * a4 (ix2 l q)) (Finset.sum_congr rfl fun j _ => ?_)
  rw [lidx0_ix2, ridx0_ix2]

/-- The reference program's result is the specification function of the argument arrays:
    s · relu((A·X)·W) + X − s · X with s the per-row gate broadcast along the columns. -/
theorem ref_value [Cert.KernelIdeal.Facts] [Cert.ReferenceIdeal.Facts]
    (a0 : Vec Ideal Cert.ReferenceIdeal.S8192x256 .f32) (a1 : Vec Ideal Cert.ReferenceIdeal.S8192x8192 .f32)
    (a2 : Vec Ideal Cert.ReferenceIdeal.S1 .f32) (a3 : Vec Ideal Cert.ReferenceIdeal.S8192 .f32)
    (a4 : Vec Ideal Cert.ReferenceIdeal.S256x256 .f32) :
    (subf (F := Ideal) (addf (F := Ideal) (mulf (F := Ideal) (broadcastInDim S8192x256 ![0, 1] bcast_S8192x1_S8192x256_0_1 (broadcastInDim S8192x1 ![0] bcast_S8192_S8192x1_0 (mulf (F := Ideal) (broadcastInDim S8192 ![0] bcast_S1_S8192_0 (Host.divf (F := Ideal) (broadcastInDim S1 ![] bcast_S_S1 (constant (F := Ideal) S_ .f32 0x3F800000#32)) (addf (F := Ideal) (broadcastInDim S1 ![] bcast_S_S1 (constant (F := Ideal) S_ .f32 0x3F800000#32)) (Host.exp (F := Ideal) (Host.negf (F := Ideal) a2))))) (Host.divf (F := Ideal) (broadcastInDim S8192 ![] bcast_S_S8192 (constant (F := Ideal) S_ .f32 0x3F800000#32)) (addf (F := Ideal) (broadcastInDim S8192 ![] bcast_S_S8192 (constant (F := Ideal) S_ .f32 0x3F800000#32)) (Host.exp (F := Ideal) (Host.negf (F := Ideal) a3))))))) (maximumf (F := Ideal) (Host.dotGeneral (F := Ideal) (φ₁ := .f32) (φ₂ := .f32) dot_S8192x256_S256x256_S8192x256_1_0_0_1_n_n none (Host.dotGeneral (F := Ideal) (φ₁ := .f32) (φ₂ := .f32) dot_S8192x8192_S8192x256_S8192x256_1_0_0_1_n_n none a1 a0) a4) (broadcastInDim S8192x256 ![] bcast_S_S8192x256 (constant (F := Ideal) S_ .f32 0x00000000#32)))) a0) (mulf (F := Ideal) (broadcastInDim S8192x256 ![0, 1] bcast_S8192x1_S8192x256_0_1 (broadcastInDim S8192x1 ![0] bcast_S8192_S8192x1_0 (mulf (F := Ideal) (broadcastInDim S8192 ![0] bcast_S1_S8192_0 (Host.divf (F := Ideal) (broadcastInDim S1 ![] bcast_S_S1 (constant (F := Ideal) S_ .f32 0x3F800000#32)) (addf (F := Ideal) (broadcastInDim S1 ![] bcast_S_S1 (constant (F := Ideal) S_ .f32 0x3F800000#32)) (Host.exp (F := Ideal) (Host.negf (F := Ideal) a2))))) (Host.divf (F := Ideal) (broadcastInDim S8192 ![] bcast_S_S8192 (constant (F := Ideal) S_ .f32 0x3F800000#32)) (addf (F := Ideal) (broadcastInDim S8192 ![] bcast_S_S8192 (constant (F := Ideal) S_ .f32 0x3F800000#32)) (Host.exp (F := Ideal) (Host.negf (F := Ideal) a3))))))) a0) : Vec Ideal Cert.ReferenceIdeal.S8192x256 .f32)
      = Cert.Spec.R a0 a1 a4 (Cert.Spec.gate (F := Ideal) a2 a3) := by
  rw [val_main_v23_eq (F := Ideal) a0 a1 a2 a3 a4]
  funext i
  obtain ⟨r, q, rfl⟩ : ∃ (r : Fin 8192) (q : Fin 256), i = ix2 r q := ⟨i 0, i 1, eq_ix2 i⟩
  rw [Cert.Spec.R_apply, ← gate_eq a2 a3]
  rw [val_main_v23_apply, val_main_v20_apply, val_main_v19_apply, val_main_v22_apply, val_main_v18_apply,
    val_main_v21_apply, idx18_ix2, idx21_ix2, agg_eq, Ideal.subf_def, Ideal.addf_def, Ideal.mulf_def, Ideal.mulf_def]

end Cert.RefSide

end
-- ==== Proof.Finite.lean ====
/-
  The precondition read back: every input entry is a real number.

  The precondition says, of each of the five input arrays, that every entry x satisfies |x| < +∞, and joins the
  five statements by "and". An extended real whose absolute value max(x, −x) lies strictly below +∞ is neither +∞
  nor −∞ (for −∞ the absolute value is +∞ too), hence is a real number. So where the precondition answers "true",
  each entry of each input is (the inclusion of) a real.
-/
import proofs.«144806_j56341380989597_1_alg».proof.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic
import Mathlib.Data.EReal.Operations

noncomputable section

namespace Cert.Finite

open Idealize.ShloMosaic Cert.Pre_finite_inputs

/-- The scalar shape has one index. -/
instance : Subsingleton S_.Idx := ⟨fun a b => funext fun d => d.elim0⟩

/-- The bit pattern of +∞ denotes the top element of the extended reals. -/
theorem ofBits_inf : Ideal.ofBits .f32 0x7F800000#32 = ⊤ := by
  simp [Ideal.ofBits, Ideal.ieee]

/-- An extended real x with |x| < +∞ is a real: at +∞ and at −∞ the absolute value max(x, −x) is +∞. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  unfold Ideal.cmp at h
  induction x using EReal.rec with
  | bot => simp at h
  | top => simp at h
  | coe r => exact ⟨r, rfl⟩

/-- One input array: if the conjunction over all its entries of "|x| < +∞" is true, every entry is a real. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) : ∀ i, ∃ x : ℝ, a i = (x : EReal) :=
  fun i => real_of_abs_lt (a i) (Host.reduce_andi_all _ _ hr hu _ e i)

/-- The precondition, where it answers "true", makes every entry of every input a real. -/
theorem reals_of_fn [Cert.Pre_finite_inputs.Facts] (a0 : FVec Ideal S8192x256 .f32) (a1 : FVec Ideal S8192x8192 .f32)
    (a2 : FVec Ideal S1 .f32) (a3 : FVec Ideal S8192 .f32) (a4 : FVec Ideal S256x256 .f32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨h1, h2⟩, h3⟩, h4⟩, h5⟩ := h0
  exact ⟨reals_of_all a0 _ _ _ h1, reals_of_all a1 _ _ _ h2, reals_of_all a2 _ _ _ h3, reals_of_all a3 _ _ _ h4,
    reals_of_all a4 _ _ _ h5⟩

end Cert.Finite

end
-- ==== Proof.lean ====
/-
  The certificate of the gated graph-aggregation kernel against its reference.

  Both programs compute agg = relu((A·X)·W) and the per-row gate s = sigmoid(w_global)·sigmoid(w_local); the kernel
  returns X + s·(agg − X), the reference s·agg + X − s·X. On the extended reals the two arrangements agree where X,
  agg and s are real, which the precondition (every input finite) provides: a finite sum of products of reals is
  real, and the sigmoid of a real is real.

  The kernel is one pipelined call on an 8 × 4 grid: for each tile of 1024 rows it adds, over four steps of the
  reduction axis, the product of a [1024, 2048] block of A with a [2048, 256] block of X into an accumulator that
  it resets at the first step, and at the last step it applies W, the ramp, the gate and the residual, and stores
  the tile. The feature array X reaches the kernel through two windows (the reduction operand and the residual
  rows), which hold it half and half. The frame of the program (it terminates, faults nowhere, leaves its arguments
  unchanged) is proved once, generic in the float instance, and read at the word-level instance and at the
  extended reals; the value of the output array is read off the same run at the extended reals: the accumulator
  after the four steps is the whole contraction over the 8192 columns, cut into its four blocks.
-/
import proofs.«144806_j56341380989597_1_alg».proof.Defs
import proofs.«144806_j56341380989597_1_alg».proof.Proof.Gen.Kernel
import proofs.«144806_j56341380989597_1_alg».proof.Proof.Gen.KernelIdeal
import proofs.«144806_j56341380989597_1_alg».proof.Proof.Gen.ReferenceIdeal
import proofs.«144806_j56341380989597_1_alg».proof.Proof.Gen.Pre_finite_inputs
import proofs.«144806_j56341380989597_1_alg».proof.Proof.Gen.ReferenceIdeal.Run
import proofs.«144806_j56341380989597_1_alg».proof.Proof.K.FrameRun
import proofs.«144806_j56341380989597_1_alg».proof.Proof.KI.FrameRun
import proofs.«144806_j56341380989597_1_alg».proof.Proof.KI.Gate
import proofs.«144806_j56341380989597_1_alg».proof.Proof.Val.Acc
import proofs.«144806_j56341380989597_1_alg».proof.Proof.Val.Final
import proofs.«144806_j56341380989597_1_alg».proof.Proof.RefSide
import proofs.«144806_j56341380989597_1_alg».proof.Proof.Spec
import proofs.«144806_j56341380989597_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The output array of the idealized kernel, after the run, is the kernel's arrangement of the specification at
    the argument arrays: every written-back tile is its rows of that one function, and the tiles cover the array. -/
theorem kernel_value (m : (ℓ : Loc Cert.KernelIdeal.nD Cert.KernelIdeal.τ Cert.KernelIdeal.sig) → Buf (Elt Ideal) ℓ) (c : Dev Cert.KernelIdeal.nD) :
    (Cert.KernelIdeal.Fr.dats (F := Ideal) m 0 c).arrAt 5 Cert.KernelIdeal.cfg0.N
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))
          (Cert.Spec.gate (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
  have h := Cert.KernelIdeal.Val.final_of m c
    (Cert.Spec.G (Cert.KernelIdeal.Fr.V m c Cert.KernelIdeal.main_arg0) (Cert.KernelIdeal.Fr.V m c Cert.KernelIdeal.main_arg1)
      (Cert.KernelIdeal.Fr.V m c Cert.KernelIdeal.main_arg4) (Cert.KernelIdeal.Fr.V m c Cert.KernelIdeal.main_v14))
    (fun t h3 p q hr => Cert.KernelIdeal.Val.outAt_last m c t h3 p q)
  rw [h, Cert.KernelIdeal.Fr.V_main_arg0, Cert.KernelIdeal.Fr.V_main_arg1, Cert.KernelIdeal.Fr.V_main_arg4, Cert.KernelIdeal.Fr.V_gate]

/-- From memories agreeing on the arguments both idealized programs run and end with the same result: the kernel's
    arrangement and the reference's are one function where the inputs are finite. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))
      (Cert.Spec.gate (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))), ?_, ?_⟩
  · exact (θ_run Cert.KernelIdeal.defs _ _).mono (fun _ h c => ⟨(h c).1.trans (kernel_value m c), (h c).2⟩)
      (Cert.KernelIdeal.Fr.run_post (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := Cert.Finite.reals_of_fn _ _ _ _ _ (hpre c)
    rw [(hagree c).1, (hagree c).2.1, (hagree c).2.2.1, (hagree c).2.2.2.1, (hagree c).2.2.2.2]
    refine (Cert.RefSide.ref_value _ _ _ _ _).trans ?_
    exact (Cert.Spec.G_eq_R _ _ _ _ h0 h1 h4 (Cert.Spec.gate_real _ _ h2 h3)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
